-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_temperature" .f32 0x41649249#32 ((134217728 / 9395241 : ℝ) : EReal)
  ∧ IdealRules.named_const.Statement Cert.KernelIdeal.κ "eps_squared" .f32 0x179ABE15#32 ((5316911940649 / 5316911983139663491615228241121378304 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x128 : Shape := ⟨3, ![16, 4096, 128]⟩
abbrev S64x128 : Shape := ⟨2, ![64, 128]⟩
abbrev S_ : Shape := ⟨0, ![]⟩

class Facts : Prop where
  bcast_S_S16x4096x128 : S_.BroadcastsInDim S16x4096x128 (![] : Fin 0 → Fin S16x4096x128.rank)
  reducesTo_S16x4096x128_S_d0_1_2 : S16x4096x128.ReducesTo [0, 1, 2] S_
  h_S_ : 0 < S_.numel
  bcast_S_S64x128 : S_.BroadcastsInDim S64x128 (![] : Fin 0 → Fin S64x128.rank)
  reducesTo_S64x128_S_d0_1 : S64x128.ReducesTo [0, 1] S_

variable [Facts]

def fn {F : FTy → Type} [FloatOps F] (main_arg0 : FVec F S16x4096x128 .f32) (main_arg1 : FVec F S64x128 .f32) : IVec S_ 1 :=
  let main_v0 : FVec F S16x4096x128 .f32 := Host.absf main_arg0
  let main_cst : FVec F S_ .f32 := constant S_ .f32 0x7F800000#32
  let main_v1 : FVec F S16x4096x128 .f32 := broadcastInDim S16x4096x128 ![] bcast_S_S16x4096x128 main_cst
  let main_v2 : IVec S16x4096x128 1 := cmpf .olt main_v0 main_v1
  let main_c : IVec S_ 1 := constantI S_ 1 1#1
  let main_v3 : IVec S_ 1 := (fun x v => Host.reduce IntOp.andi x v reducesTo_S16x4096x128_S_d0_1_2 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  main_v8
-- ==== Kernel.lean ====
abbrev S16x4096x128 : Shape := ⟨3, ![16, 4096, 128]⟩
abbrev S64x128 : Shape := ⟨2, ![64, 128]⟩
abbrev S128x64 : Shape := ⟨2, ![128, 64]⟩
abbrev S64 : Shape := ⟨1, ![64]⟩
abbrev S64x1 : Shape := ⟨2, ![64, 1]⟩
abbrev S4x4096x128 : Shape := ⟨3, ![4, 4096, 128]⟩
abbrev S16384x128 : Shape := ⟨2, ![16384, 128]⟩
abbrev S128x128 : Shape := ⟨2, ![128, 128]⟩
abbrev S16384x64 : Shape := ⟨2, ![16384, 64]⟩
abbrev S16384 : Shape := ⟨1, ![16384]⟩
abbrev S16384x1 : Shape := ⟨2, ![16384, 1]⟩

abbrev nBuf : Space → Nat
  | .hbm => 5
  | .vmem => 9
  | .smem => 0
  | _ => 0

abbrev bufTy : (tb : Table) → Fin (tcTables nBuf tb) → BufTy
  | .hbm, ⟨0, _⟩ => ⟨S16x4096x128, .f32⟩
  | .hbm, ⟨1, _⟩ => ⟨S64x128, .f32⟩
  | .hbm, ⟨2, _⟩ => ⟨S128x64, .f32⟩
  | .hbm, ⟨3, _⟩ => ⟨S64x128, .f32⟩
  | .hbm, ⟨4, _⟩ => ⟨S16x4096x128, .f32⟩
  | .local _ .vmem, ⟨0, _⟩ => ⟨S64x128, .f32⟩
  | .local _ .vmem, ⟨1, _⟩ => ⟨S128x64, .f32⟩
  | .local _ .vmem, ⟨2, _⟩ => ⟨S64x128, .f32⟩
  | .local _ .vmem, ⟨3, _⟩ => ⟨S4x4096x128, .f32⟩
  | .local _ .vmem, ⟨4, _⟩ => ⟨S4x4096x128, .f32⟩
  | .local _ .vmem, ⟨5, _⟩ => ⟨S128x64, .f32⟩
  | .local _ .vmem, ⟨6, _⟩ => ⟨S64x128, .f32⟩
  | .local _ .vmem, ⟨7, _⟩ => ⟨S4x4096x128, .f32⟩
  | .local _ .vmem, ⟨8, _⟩ => ⟨S4x4096x128, .f32⟩
  | _, _ => ⟨S16x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0_0 : Ref sig .tc := ⟨.hbm, 2, rfl⟩
abbrev main_call0_v0_1 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg3_1 : Ref sig .tc := ⟨.vmem, 8, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem3_1 : DmaSem sig := 8

abbrev nD : Nat := 1
abbrev τ : Topo := Topo.v7x

variable {F : FTy → Type} [FloatOps F]

abbrev grid0 : Pipeline.Grid := .none

abbrev stage0_0 : Fin 1 → Memref sig .tc .vmem S64x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S4x4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4x4096x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S64x128_S64x128_0_0 : ∀ a, (![0, 0] : Fin 2 → Nat) a + S64x128.size a ≤ S64x128.size a
  h_S64x128 : 0 < S64x128.numel
  reduces_S64x128_S64 : S64x128.Reduces [1] S64
  shapeCasts_S64_S64x1 : S64.ShapeCasts S64x1
  broadcasts_S64x1_S64x128 : S64x1.Broadcasts S64x128
  transposes_S64x128_p1_0_S128x64 : S64x128.Transposes [1, 0] S128x64
  inb_S128x64_S128x64_0_0 : ∀ a, (![0, 0] : Fin 2 → Nat) a + S128x64.size a ≤ S128x64.size a
  h_S128x64 : 0 < S128x64.numel
  inb_S4x4096x128_S4x4096x128_0_0_0 : ∀ a, (![0, 0, 0] : Fin 3 → Nat) a + S4x4096x128.size a ≤ S4x4096x128.size a
  h_S4x4096x128 : 0 < S4x4096x128.numel
  shapeCasts_S4x4096x128_S16384x128 : S4x4096x128.ShapeCasts S16384x128
  shapeCasts_S128x64_S128x64 : S128x64.ShapeCasts S128x64
  reduces_S16384x64_S16384 : S16384x64.Reduces [1] S16384
  shapeCasts_S16384_S16384x1 : S16384.ShapeCasts S16384x1
  broadcasts_S16384x1_S16384x64 : S16384x1.Broadcasts S16384x64
  shapeCasts_S64x128_S64x128 : S64x128.ShapeCasts S64x128
  shapeCasts_S16384x128_S4x4096x128 : S16384x128.ShapeCasts S4x4096x128
  dot_S16384x128_S128x128_S16384x128_1_0_0_1_n_n_wf : DotDims.WF S16384x128 S128x128 S16384x128 [1] [0] [0] [1] [] []
  dot_S16384x128_S128x64_S16384x64_1_0_0_1_n_n_wf : DotDims.WF S16384x128 S128x64 S16384x64 [1] [0] [0] [1] [] []
  dot_S16384x64_S64x128_S16384x128_1_0_0_1_n_n_wf : DotDims.WF S16384x64 S64x128 S16384x128 [1] [0] [0] [1] [] []
  hstage0_0 : ∀ j, (stage0_0 j).IsWhole
  hstage0_1 : ∀ j, (stage0_1 j).IsWhole
  hstage0_2 : ∀ j, (stage0_2 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x4096x128.size a ≤ S16x4096x128.size a
  hwx1_0 : ∀ i : grid1.Coords, EltTy.bits .f32 = 32 ∨ (Rect.block (s := S16x4096x128) S4x4096x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4x4096x128.size a ≤ S16x4096x128.size a
  hwx1_3 : ∀ i : grid1.Coords, EltTy.bits .f32 = 32 ∨ (Rect.block (s := S16x4096x128) S4x4096x128.size (cc1_transform_3 i) (hinb1_3 i)).WholeWords (EltTy.packing .f32)

variable [Facts₀]

def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf
def dot_S16384x64_S64x128_S16384x128_1_0_0_1_n_n : DotDims S16384x64 S64x128 S16384x128 where
  lhsContracting := [1]
  rhsContracting := [0]
  lhsNonContracting := [0]
  rhsNonContracting := [1]
  lhsBatch := []
  rhsBatch := []
  wf := dot_S16384x64_S64x128_S16384x128_1_0_0_1_n_n_wf

abbrev win0_0 : Pipeline.Window sig grid0 :=
  Pipeline.Window.whole (Memref.whole main_arg1) false false (stage0_0 0) (sem0_0 0) (Memref.isWhole_whole _) (hstage0_0 0)

abbrev win0_1 : Pipeline.Window sig grid0 :=
  Pipeline.Window.whole (Memref.whole main_call0_v0_0) true false (stage0_1 0) (sem0_1 0) (Memref.isWhole_whole _) (hstage0_1 0)

abbrev win0_2 : Pipeline.Window sig grid0 :=
  Pipeline.Window.whole (Memref.whole main_call0_v0_1) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S4x4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v0_0) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v0_1) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v0) S4x4096x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16x4096x128 : Shape := ⟨3, ![16, 4096, 128]⟩
abbrev S64x128 : Shape := ⟨2, ![64, 128]⟩
abbrev S_ : Shape := ⟨0, ![]⟩
abbrev S16x4096 : Shape := ⟨2, ![16, 4096]⟩
abbrev S16x4096x1 : Shape := ⟨3, ![16, 4096, 1]⟩
abbrev S65536x128 : Shape := ⟨2, ![65536, 128]⟩
abbrev S64 : Shape := ⟨1, ![64]⟩
abbrev S64x1 : Shape := ⟨2, ![64, 1]⟩
abbrev S128x64 : Shape := ⟨2, ![128, 64]⟩
abbrev S65536x64 : Shape := ⟨2, ![65536, 64]⟩
abbrev S65536 : Shape := ⟨1, ![65536]⟩
abbrev S65536x1 : Shape := ⟨2, ![65536, 1]⟩

abbrev nBuf : Space → Nat
  | .hbm => 45
  | .vmem => 0
  | .smem => 0
  | _ => 0

abbrev bufTy : (tb : Table) → Fin (tcTables nBuf tb) → BufTy
  | .hbm, ⟨0, _⟩ => ⟨S16x4096x128, .f32⟩
  | .hbm, ⟨1, _⟩ => ⟨S64x128, .f32⟩
  | .hbm, ⟨2, _⟩ => ⟨S16x4096x128, .f32⟩
  | .hbm, ⟨3, _⟩ => ⟨S_, .f32⟩
  | .hbm, ⟨4, _⟩ => ⟨S16x4096, .f32⟩
  | .hbm, ⟨5, _⟩ => ⟨S16x4096x1, .f32⟩
  | .hbm, ⟨6, _⟩ => ⟨S16x4096x1, .f32⟩
  | .hbm, ⟨7, _⟩ => ⟨S_, .f32⟩
  | .hbm, ⟨8, _⟩ => ⟨S16x4096x1, .f32⟩
  | .hbm, ⟨9, _⟩ => ⟨S16x4096x1, .f32⟩
  | .hbm, ⟨10, _⟩ => ⟨S16x4096x128, .f32⟩
  | .hbm, ⟨11, _⟩ => ⟨S16x4096x128, .f32⟩
  | .hbm, ⟨12, _⟩ => ⟨S65536x128, .f32⟩
  | .hbm, ⟨13, _⟩ => ⟨S64x128, .f32⟩
  | .hbm, ⟨14, _⟩ => ⟨S_, .f32⟩
  | .hbm, ⟨15, _⟩ => ⟨S64, .f32⟩
  | .hbm, ⟨16, _⟩ => ⟨S64x1, .f32⟩
  | .hbm, ⟨17, _⟩ => ⟨S64x1, .f32⟩
  | .hbm, ⟨18, _⟩ => ⟨S_, .f32⟩
  | .hbm, ⟨19, _⟩ => ⟨S64x1, .f32⟩
  | .hbm, ⟨20, _⟩ => ⟨S64x1, .f32⟩
  | .hbm, ⟨21, _⟩ => ⟨S64x128, .f32⟩
  | .hbm, ⟨22, _⟩ => ⟨S64x128, .f32⟩
  | .hbm, ⟨23, _⟩ => ⟨S128x64, .f32⟩
  | .hbm, ⟨24, _⟩ => ⟨S65536x64, .f32⟩
  | .hbm, ⟨25, _⟩ => ⟨S_, .f32⟩
  | .hbm, ⟨26, _⟩ => ⟨S65536x64, .f32⟩
  | .hbm, ⟨27, _⟩ => ⟨S65536x64, .f32⟩
  | .hbm, ⟨28, _⟩ => ⟨S_, .f32⟩
  | .hbm, ⟨29, _⟩ => ⟨S65536, .f32⟩
  | .hbm, ⟨30, _⟩ => ⟨S_, .f32⟩
  | .hbm, ⟨31, _⟩ => ⟨S65536, .f32⟩
  | .hbm, ⟨32, _⟩ => ⟨S65536, .f32⟩
  | .hbm, ⟨33, _⟩ => ⟨S65536x1, .f32⟩
  | .hbm, ⟨34, _⟩ => ⟨S65536x64, .f32⟩
  | .hbm, ⟨35, _⟩ => ⟨S65536x64, .f32⟩
  | .hbm, ⟨36, _⟩ => ⟨S65536x64, .f32⟩
  | .hbm, ⟨37, _⟩ => ⟨S_, .f32⟩
  | .hbm, ⟨38, _⟩ => ⟨S65536, .f32⟩
  | .hbm, ⟨39, _⟩ => ⟨S65536x1, .f32⟩
  | .hbm, ⟨40, _⟩ => ⟨S65536x64, .f32⟩
  | .hbm, ⟨41, _⟩ => ⟨S65536x64, .f32⟩
  | .hbm, ⟨42, _⟩ => ⟨S65536x128, .f32⟩
  | .hbm, ⟨43, _⟩ => ⟨S65536x128, .f32⟩
  | .hbm, ⟨44, _⟩ => ⟨S16x4096x128, .f32⟩
  | _, _ => ⟨S16x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_cst_5 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_6 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]

class Facts₀ : Prop where
  reducesTo_S16x4096x128_S16x4096_d2 : S16x4096x128.ReducesTo [2] S16x4096
  h_S_ : 0 < S_.numel
  bcast_S16x4096_S16x4096x1_0_1 : S16x4096.BroadcastsInDim S16x4096x1 (![0, 1] : Fin 2 → Fin S16x4096x1.rank)
  bcast_S_S16x4096x1 : S_.BroadcastsInDim S16x4096x1 (![] : Fin 0 → Fin S16x4096x1.rank)
  bcast_S16x4096x1_S16x4096x128_0_1_2 : S16x4096x1.BroadcastsInDim S16x4096x128 (![0, 1, 2] : Fin 3 → Fin S16x4096x128.rank)
  shapeCasts_S16x4096x128_S65536x128 : S16x4096x128.ShapeCasts S65536x128
  reducesTo_S64x128_S64_d1 : S64x128.ReducesTo [1] S64
  bcast_S64_S64x1_0 : S64.BroadcastsInDim S64x1 (![0] : Fin 1 → Fin S64x1.rank)
  bcast_S_S64x1 : S_.BroadcastsInDim S64x1 (![] : Fin 0 → Fin S64x1.rank)
  bcast_S64x1_S64x128_0_1 : S64x1.BroadcastsInDim S64x128 (![0, 1] : Fin 2 → Fin S64x128.rank)
  transposes_S64x128_S128x64_1_0 : S64x128.Transposes [1, 0] S128x64
  bcast_S_S65536x64 : S_.BroadcastsInDim S65536x64 (![] : Fin 0 → Fin S65536x64.rank)
  reducesTo_S65536x64_S65536_d1 : S65536x64.ReducesTo [1] S65536
  bcast_S_S65536 : S_.BroadcastsInDim S65536 (![] : Fin 0 → Fin S65536.rank)
  bcast_S65536_S65536x1_0 : S65536.BroadcastsInDim S65536x1 (![0] : Fin 1 → Fin S65536x1.rank)
  bcast_S65536x1_S65536x64_0_1 : S65536x1.BroadcastsInDim S65536x64 (![0, 1] : Fin 2 → Fin S65536x64.rank)
  shapeCasts_S65536x128_S16x4096x128 : S65536x128.ShapeCasts S16x4096x128
  dot_S65536x128_S128x64_S65536x64_1_0_0_1_n_n_wf : DotDims.WF S65536x128 S128x64 S65536x64 [1] [0] [0] [1] [] []
  dot_S65536x64_S64x128_S65536x128_1_0_0_1_n_n_wf : DotDims.WF S65536x64 S64x128 S65536x128 [1] [0] [0] [1] [] []

variable [Facts₀]

def dot_S65536x128_S128x64_S65536x64_1_0_0_1_n_n : DotDims S65536x128 S128x64 S65536x64 where
  lhsContracting := [1]
  rhsContracting := [0]
  lhsNonContracting := [0]
  rhsNonContracting := [1]
  lhsBatch := []
  rhsBatch := []
  wf := dot_S65536x128_S128x64_S65536x64_1_0_0_1_n_n_wf
def dot_S65536x64_S64x128_S65536x128_1_0_0_1_n_n : DotDims S65536x64 S64x128 S65536x128 where
  lhsContracting := [1]
  rhsContracting := [0]
  lhsNonContracting := [0]
  rhsNonContracting := [1]
  lhsBatch := []
  rhsBatch := []
  wf := dot_S65536x64_S64x128_S65536x128_1_0_0_1_n_n_wf

class Facts : Prop extends Facts₀ where

variable [Facts]
-- ==== Proof.KernelArrays.lean ====
/-
  From blocks to arrays, for both regions of the kernel.

  The bank's preparation runs at one point and every window of it is the whole array, so what its two outputs end holding
  is the body's two stored values of the bank as launched: the unit bank, and its transpose times the reciprocal temperature.

  The streaming region runs at four points. Point t reads batches 4t … 4t+3 of the features (the feature window's block
  index is (t, 0, 0), blocks of 4 × 4096 × 128), reads both prepared banks whole, and writes back the same batches of the
  result. The body's stored value at (b, s, k) of a block depends on the block only through its row (b, s); so the result
  array is one function of the feature array, row by row: entry (i₀, i₁, i₂) is the row function of row (i₀, i₁) at lane i₂.
  The four blocks tile the array: batch i₀ belongs to point i₀ / 4.
-/
import proofs.«164978_g85598698209303_cont_9to1_m_192_20_alg».proof.Proof.Gen.KernelIdeal.Frame
import Idealize.ShloMosaic.Lib.Pipeline.Value
import Idealize.ShloMosaic.Lib.ValueIdx

set_option maxRecDepth 16384

noncomputable section

namespace Cert.KernelIdeal.Arrays

open Cert.KernelIdeal Cert.KernelIdeal.Gen
open Idealize.ShloMosaic Idealize.ShloMosaic.TcCoe Idealize.SL.Sem Idealize.ShloMosaic.ValueIdx
open Idealize.ShloMosaic.Pipeline (Dat Cfg Window)

variable {F : FTy → Type} [FloatOps F] [Named F]
variable (V : (c : Dev nD) → (b : Ref sig .tc) → Buf (Elt F) ((c : Thread nD τ).loc b))

theorem zeros2 : (![0, 0] : Fin 2 → Nat) = fun _ => 0 := funext fun a => by fin_cases a <;> rfl
theorem zeros3 : (![0, 0, 0] : Fin 3 → Nat) = fun _ => 0 := funext fun a => by fin_cases a <;> rfl

/-! ## The bank's preparation: one point, every window the whole array -/

/-- The single point's input block is the bank itself. -/
theorem bank_block (c : Dev nD) (t : Fin cfg0.N) :
    (iblk0 V c 0 t : Vec F S64x128 .f32) = (V c main_arg1 : Vec F S64x128 .f32) := by
  funext y
  show V c main_arg1 (((cfg0.win 0).blk t).view.emb y) = V c main_arg1 y
  refine congrArg (V c main_arg1) (funext fun a => Fin.ext ?_)
  match a with
  | ⟨0, _⟩ => show 0 * 64 + 1 * (y 0).val = (y 0).val; omega
  | ⟨1, _⟩ => show 0 * 128 + 1 * (y 1).val = (y 1).val; omega

/-- What the point writes back to the unit bank's array is the body's first stored value of the bank, block for block. -/
theorem unitBank_flushed (c : Dev nD) (t : Fin cfg0.N) :
    (dat0 V c).flushed 2 t = ((cfg0.win 2).blk t).view.read (Elt F) (k0_pay1 (V c main_arg1 : Vec F S64x128 .f32)) := by
  show (cfg0.win 2).cut (grid0.coords t) ((dat0 V c).after 2 t) = _
  rw [after0_2]
  unfold out0_2
  rw [View.canon_unit_zero zeros2]
  simp only [View.ld_unit_zero (S := S64x128) zeros2]
  rw [bank_block V c t]
  funext j
  show k0_pay1 (V c main_arg1 : Vec F S64x128 .f32) j = k0_pay1 (V c main_arg1 : Vec F S64x128 .f32) (((cfg0.win 2).blk t).view.emb j)
  refine congrArg (k0_pay1 (V c main_arg1 : Vec F S64x128 .f32)) (funext fun a => Fin.ext ?_)
  match a with
  | ⟨0, _⟩ => show (j 0).val = 0 * 64 + 1 * (j 0).val; omega
  | ⟨1, _⟩ => show (j 1).val = 0 * 128 + 1 * (j 1).val; omega

/-- And to the scaled transposed bank's array, the body's second stored value. -/
theorem scaledBankT_flushed (c : Dev nD) (t : Fin cfg0.N) :
    (dat0 V c).flushed 1 t = ((cfg0.win 1).blk t).view.read (Elt F) (k0_pay2 (V c main_arg1 : Vec F S64x128 .f32)) := by
  show (cfg0.win 1).cut (grid0.coords t) ((dat0 V c).after 1 t) = _
  rw [after0_1]
  unfold out0_1
  rw [View.canon_unit_zero zeros2]
  simp only [View.ld_unit_zero (S := S64x128) zeros2]
  rw [bank_block V c t]
  funext j
  show k0_pay2 (V c main_arg1 : Vec F S64x128 .f32) j = k0_pay2 (V c main_arg1 : Vec F S64x128 .f32) (((cfg0.win 1).blk t).view.emb j)
  refine congrArg (k0_pay2 (V c main_arg1 : Vec F S64x128 .f32)) (funext fun a => Fin.ext ?_)
  match a with
  | ⟨0, _⟩ => show (j 0).val = 0 * 128 + 1 * (j 0).val; omega
  | ⟨1, _⟩ => show (j 1).val = 0 * 64 + 1 * (j 1).val; omega

/-- The one block is the whole array: every index of the unit bank's array is in it. -/
theorem unitBank_cover (i : S64x128.Idx) :
    ∃ t : Fin cfg0.N, (cfg0.win 2).flush t = true ∧ i ∈ ((cfg0.win 2).blk t).view.set := by
  refine ⟨t0_0, flush0_2 t0_0, ?_⟩
  show i ∈ ((View.whole main_call0_v0_1).slice (win0_2.rect t0_0)).set
  rw [View.set_slice_whole, Rect.mem_set_unit]
  intro a
  match a with
  | ⟨0, _⟩ => show 0 * 64 ≤ (i 0).val ∧ (i 0).val < 0 * 64 + 64; have h : (i 0).val < 64 := (i 0).isLt; omega
  | ⟨1, _⟩ => show 0 * 128 ≤ (i 1).val ∧ (i 1).val < 0 * 128 + 128; have h : (i 1).val < 128 := (i 1).isLt; omega

theorem scaledBankT_cover (i : S128x64.Idx) :
    ∃ t : Fin cfg0.N, (cfg0.win 1).flush t = true ∧ i ∈ ((cfg0.win 1).blk t).view.set := by
  refine ⟨t0_0, flush0_1 t0_0, ?_⟩
  show i ∈ ((View.whole main_call0_v0_0).slice (win0_1.rect t0_0)).set
  rw [View.set_slice_whole, Rect.mem_set_unit]
  intro a
  match a with
  | ⟨0, _⟩ => show 0 * 128 ≤ (i 0).val ∧ (i 0).val < 0 * 128 + 128; have h : (i 0).val < 128 := (i 0).isLt; omega
  | ⟨1, _⟩ => show 0 * 64 ≤ (i 1).val ∧ (i 1).val < 0 * 64 + 64; have h : (i 1).val < 64 := (i 1).isLt; omega

/-- The unit bank's array after the preparation. -/
theorem unitBank_array (c : Dev nD) :
    (dat0 V c).arrAt 2 cfg0.N = k0_pay1 (V c main_arg1 : Vec F S64x128 .f32) :=
  (dat0 V c).arrAt_eq_of_cover 2 _ (fun t _ => unitBank_flushed V c t) unitBank_cover

/-- The scaled transposed bank's array after the preparation. -/
theorem scaledBankT_array (c : Dev nD) :
    (dat0 V c).arrAt 1 cfg0.N = k0_pay2 (V c main_arg1 : Vec F S64x128 .f32) :=
  (dat0 V c).arrAt_eq_of_cover 1 _ (fun t _ => scaledBankT_flushed V c t) scaledBankT_cover

/-! ## The streaming region: four points, four batches each -/

/-- The printed index maps over the four points: the feature window and the result window sit at block (t, 0, 0), both
    bank windows at block (0, 0). -/
theorem stream_index : ∀ t : Fin cfg1.N,
    win1_0.index t (0 : Fin 3) = t.val ∧ win1_0.index t (1 : Fin 3) = 0 ∧ win1_0.index t (2 : Fin 3) = 0
    ∧ win1_3.index t (0 : Fin 3) = t.val ∧ win1_3.index t (1 : Fin 3) = 0 ∧ win1_3.index t (2 : Fin 3) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

/-- At every point the scaled transposed bank's block is the whole array. -/
theorem scaledBankT_block (c : Dev nD) (t : Fin cfg1.N) :
    (iblk1 V c 1 t : Vec F S128x64 .f32) = (V c main_call0_v0_0 : Vec F S128x64 .f32) := by
  obtain ⟨-, -, -, -, -, -, e0, e1, -, -⟩ := stream_index t
  funext y
  show V c main_call0_v0_0 (((cfg1.win 1).blk t).view.emb y) = V c main_call0_v0_0 y
  refine congrArg (V c main_call0_v0_0) (funext fun a => Fin.ext ?_)
  match a with
  | ⟨0, _⟩ => show win1_1.index t (0 : Fin 2) * 128 + 1 * (y 0).val = (y 0).val; omega
  | ⟨1, _⟩ => show win1_1.index t (1 : Fin 2) * 64 + 1 * (y 1).val = (y 1).val; omega

/-- And so is the unit bank's. -/
theorem unitBank_block (c : Dev nD) (t : Fin cfg1.N) :
    (iblk1 V c 2 t : Vec F S64x128 .f32) = (V c main_call0_v0_1 : Vec F S64x128 .f32) := by
  obtain ⟨-, -, -, -, -, -, -, -, e0, e1⟩ := stream_index t
  funext y
  show V c main_call0_v0_1 (((cfg1.win 2).blk t).view.emb y) = V c main_call0_v0_1 y
  refine congrArg (V c main_call0_v0_1) (funext fun a => Fin.ext ?_)
  match a with
  | ⟨0, _⟩ => show win1_2.index t (0 : Fin 2) * 64 + 1 * (y 0).val = (y 0).val; omega
  | ⟨1, _⟩ => show win1_2.index t (1 : Fin 2) * 128 + 1 * (y 1).val = (y 1).val; omega

/-- There are four points. -/
theorem point_lt (t : Fin cfg1.N) : t.val < 4 := by
  have h : t.val < grid1.N := t.isLt
  rw [N_1] at h; exact h

/-- Batch 4t + b of the sixteen. -/
def batchOf (t : Fin cfg1.N) (b : Fin 4) : Fin 16 :=
  ⟨t.val * 4 + b.val, by have ht := point_lt t; have hb : b.val < 4 := b.isLt; omega⟩

/-- The feature block at point t, read at (b, s, k'), is the feature array at batch 4t + b. -/
theorem feature_block (c : Dev nD) (t : Fin cfg1.N) (b : Fin 4) (s : Fin 4096) (k' : Fin 128) :
    (iblk1 V c 0 t : Vec F S4x4096x128 .f32) (ix3 b s k')
      = (V c main_arg0 : Vec F S16x4096x128 .f32) (ix3 (batchOf t b) s k') := by
  obtain ⟨e0, e1, e2, -, -, -, -, -, -, -⟩ := stream_index t
  show V c main_arg0 (((cfg1.win 0).blk t).view.emb (ix3 b s k')) = V c main_arg0 _
  refine congrArg (V c main_arg0) (funext fun a => Fin.ext ?_)
  match a with
  | ⟨0, _⟩ => show win1_0.index t (0 : Fin 3) * 4 + 1 * b.val = t.val * 4 + b.val; omega
  | ⟨1, _⟩ => show win1_0.index t (1 : Fin 3) * 4096 + 1 * s.val = s.val; omega
  | ⟨2, _⟩ => show win1_0.index t (2 : Fin 3) * 128 + 1 * k'.val = k'.val; omega

/-- The result array as one function of the arrays the region finds, for a row function `R`: entry (i₀, i₁, i₂) is `R` of
    feature row (i₀, i₁) and the two prepared banks, at lane i₂. -/
def rowwise (R : (Fin 128 → Elt F .f32) → Vec F S128x64 .f32 → Vec F S64x128 .f32 → Fin 128 → Elt F .f32) (c : Dev nD) :
    Vec F S16x4096x128 .f32 :=
  fun i => R (fun k' => (V c main_arg0 : Vec F S16x4096x128 .f32) (ix3 (i 0) (i 1) k'))
    (V c main_call0_v0_0 : Vec F S128x64 .f32) (V c main_call0_v0_1 : Vec F S64x128 .f32) (i 2)

variable {R : (Fin 128 → Elt F .f32) → Vec F S128x64 .f32 → Vec F S64x128 .f32 → Fin 128 → Elt F .f32}
  (hrow : ∀ (x0 : Vec F S4x4096x128 .f32) (v9 : Vec F S128x64 .f32) (v17 : Vec F S64x128 .f32) (b : Fin 4) (s : Fin 4096) (k : Fin 128),
    k1_pay1 x0 v9 v17 (ix3 b s k) = R (fun k' => x0 (ix3 b s k')) v9 v17 k)

include hrow in
/-- What point t writes back is block t of the row-wise function: the body's stored value at (b, s, k) is the row function of
    the block's row (b, s), which is the feature array's row (4t + b, s). -/
theorem result_flushed (c : Dev nD) (t : Fin cfg1.N) :
    (dat1 V c).flushed 3 t = ((cfg1.win 3).blk t).view.read (Elt F) (rowwise V R c) := by
  show (cfg1.win 3).cut (grid1.coords t) ((dat1 V c).after 3 t) = _
  rw [after1_3]
  unfold out1_3
  rw [View.canon_unit_zero zeros3]
  simp only [View.ld_unit_zero (S := S4x4096x128) zeros3, View.ld_unit_zero (S := S128x64) zeros2, View.ld_unit_zero (S := S64x128) zeros2]
  rw [scaledBankT_block V c t, unitBank_block V c t]
  obtain ⟨-, -, -, e0, e1, e2, -, -, -, -⟩ := stream_index t
  funext j
  obtain ⟨b, s, k, rfl⟩ : ∃ (b : Fin 4) (s : Fin 4096) (k : Fin 128), j = ix3 b s k := ⟨j 0, j 1, j 2, eq_ix3 j⟩
  show k1_pay1 (iblk1 V c 0 t : Vec F S4x4096x128 .f32) (V c main_call0_v0_0 : Vec F S128x64 .f32) (V c main_call0_v0_1 : Vec F S64x128 .f32) (ix3 b s k)
    = rowwise V R c (((cfg1.win 3).blk t).view.emb (ix3 b s k))
  refine (hrow (iblk1 V c 0 t : Vec F S4x4096x128 .f32) _ _ b s k).trans ?_
  have hemb : ((cfg1.win 3).blk t).view.emb (ix3 b s k) = (ix3 (batchOf t b) s k : S16x4096x128.Idx) := by
    funext a; apply Fin.ext
    match a with
    | ⟨0, _⟩ => show win1_3.index t (0 : Fin 3) * 4 + 1 * b.val = t.val * 4 + b.val; omega
    | ⟨1, _⟩ => show win1_3.index t (1 : Fin 3) * 4096 + 1 * s.val = s.val; omega
    | ⟨2, _⟩ => show win1_3.index t (2 : Fin 3) * 128 + 1 * k.val = k.val; omega
  rw [hemb]
  show R _ _ _ k = R (fun k' => (V c main_arg0 : Vec F S16x4096x128 .f32) (ix3 (batchOf t b) s k')) _ _ k
  exact congrArg (fun x => R x (V c main_call0_v0_0 : Vec F S128x64 .f32) (V c main_call0_v0_1 : Vec F S64x128 .f32) k)
    (funext fun k' => feature_block V c t b s k')

/-- An index of the result array is in point t's block iff each coordinate is in the block's range on its axis. -/
theorem mem_result_block (t : Fin cfg1.N) (i : S16x4096x128.Idx) :
    i ∈ ((cfg1.win 3).blk t).view.set ↔ ∀ a : Fin 3, win1_3.index t a * S4x4096x128.size a ≤ (i a).val ∧ (i a).val < win1_3.index t a * S4x4096x128.size a + S4x4096x128.size a := by
  show i ∈ ((View.whole main_v0).slice (win1_3.rect t)).set ↔ _
  rw [View.set_slice_whole, Rect.mem_set_unit]
  exact Iff.rfl

/-- The four blocks tile the result array: batch i₀ is written by point i₀ / 4. -/
theorem result_cover (i : S16x4096x128.Idx) :
    ∃ t : Fin cfg1.N, (cfg1.win 3).flush t = true ∧ i ∈ ((cfg1.win 3).blk t).view.set := by
  have h0 : (i 0).val < 16 := (i 0).isLt
  have h1 : (i 1).val < 4096 := (i 1).isLt
  have h2 : (i 2).val < 128 := (i 2).isLt
  let t : Fin cfg1.N := ⟨(i 0).val / 4, by show (i 0).val / 4 < grid1.N; rw [N_1]; omega⟩
  have ht : t.val = (i 0).val / 4 := rfl
  obtain ⟨-, -, -, e0, e1, e2, -, -, -, -⟩ := stream_index t
  refine ⟨t, flush1_3 t, ?_⟩
  rw [mem_result_block]
  intro a
  match a with
  | ⟨0, _⟩ => show win1_3.index t (0 : Fin 3) * 4 ≤ (i 0).val ∧ (i 0).val < win1_3.index t (0 : Fin 3) * 4 + 4; omega
  | ⟨1, _⟩ => show win1_3.index t (1 : Fin 3) * 4096 ≤ (i 1).val ∧ (i 1).val < win1_3.index t (1 : Fin 3) * 4096 + 4096; omega
  | ⟨2, _⟩ => show win1_3.index t (2 : Fin 3) * 128 ≤ (i 2).val ∧ (i 2).val < win1_3.index t (2 : Fin 3) * 128 + 128; omega

include hrow in
/-- The result array after the streaming region: the row-wise function of the arrays the region found. -/
theorem result_array (c : Dev nD) : (dat1 V c).arrAt 3 cfg1.N = rowwise V R c :=
  (dat1 V c).arrAt_eq_of_cover 3 _ (fun t _ => result_flushed V hrow c t) result_cover

end Cert.KernelIdeal.Arrays

end
-- ==== Proof.RowSpec.lean ====
/-
  The row-level mathematics both programs compute, on the extended reals.

  A token's feature row x (length n) and a memory bank B (m rows of length n). Each row is scaled to unit Euclidean
  length, its norm floored at a small eps so that a zero row stays zero. The scaled feature row attends over the scaled
  bank: logits are inner products divided by a temperature, weights their softmax, and the weighted mixture of the bank's
  unit rows is added back to the unit feature row.

  The two programs spell this differently. The reference divides by max(sqrt(sum of squares), eps), divides the logits by
  the temperature, and shifts the logits by their maximum before exponentiating. The kernel multiplies by the reciprocal
  square root of max(sum of squares, eps squared), folds the reciprocal temperature into a transposed copy of the bank,
  and exponentiates the logits unshifted. `streamRow` is the kernel's per-row arithmetic over an already prepared bank;
  `kernelRow` puts the bank's preparation under it; `referenceRow` is the reference's.
-/
import Idealize.ShloMosaic.PureOps.Ideal

noncomputable section

namespace Cert.Attend

open Idealize.ShloMosaic

variable {n m : ℕ}

/-- A row over its Euclidean norm floored at `eps`: `v k / max (sqrt (∑ v²)) eps`. -/
def unitRow (eps : EReal) (v : Fin n → EReal) (k : Fin n) : EReal :=
  Ideal.div (v k) (max (Ideal.sqrt (∑ k' : Fin n, v k' * v k')) eps)

/-- The same scaling by a reciprocal square root: `x k * rsqrt (max (∑ x² · 1) epsSq)`, the sum of squares taken as
    a product with a column of ones. -/
def rsqrtRow (epsSq : EReal) (x : Fin n → EReal) (k : Fin n) : EReal :=
  x k * Ideal.rsqrt (max (∑ k' : Fin n, x k' * x k' * 1) epsSq)

/-- The unshifted exponential weight of bank row `j` for a scaled row `xn` against a transposed, pre-scaled bank `bt`. -/
def streamWeight (xn : Fin n → EReal) (bt : Fin n → Fin m → EReal) (j : Fin m) : EReal :=
  Ideal.exp (∑ k' : Fin n, xn k' * bt k' j)

/-- The kernel's per-row arithmetic over a prepared bank: `bt` the transposed bank already multiplied by the reciprocal
    temperature, `bn` the unit bank. -/
def streamRow (epsSq : EReal) (x : Fin n → EReal) (bt : Fin n → Fin m → EReal) (bn : Fin m → Fin n → EReal) (k : Fin n) : EReal :=
  rsqrtRow epsSq x k
    + ∑ j : Fin m, Ideal.div (streamWeight (rsqrtRow epsSq x) bt j) (∑ j' : Fin m, streamWeight (rsqrtRow epsSq x) bt j') * bn j k

/-- The kernel's row from the raw bank: the unit bank, and its transpose times the reciprocal temperature `invT`. -/
def kernelRow (eps epsSq invT : EReal) (x : Fin n → EReal) (B : Fin m → Fin n → EReal) (k : Fin n) : EReal :=
  streamRow epsSq x (fun k' j => unitRow eps (B j) k' * invT) (fun j => unitRow eps (B j)) k

/-- The reference's logit of bank row `j`: the inner product of the unit rows over the temperature. -/
def refLogit (eps tmp : EReal) (x : Fin n → EReal) (B : Fin m → Fin n → EReal) (j : Fin m) : EReal :=
  Ideal.div (∑ k' : Fin n, unitRow eps x k' * unitRow eps (B j) k') tmp

/-- The reference's shift: the largest logit, folded from −∞ (and once more compared with −∞). -/
def refShift (eps tmp : EReal) (x : Fin n → EReal) (B : Fin m → Fin n → EReal) : EReal :=
  max ⊥ ((Finset.univ : Finset (Fin m)).fold max ⊥ (refLogit eps tmp x B))

/-- The reference's shifted exponential weight of bank row `j`. -/
def refWeight (eps tmp : EReal) (x : Fin n → EReal) (B : Fin m → Fin n → EReal) (j : Fin m) : EReal :=
  Ideal.exp (refLogit eps tmp x B j - refShift eps tmp x B)

/-- The reference's row. -/
def referenceRow (eps tmp : EReal) (x : Fin n → EReal) (B : Fin m → Fin n → EReal) (k : Fin n) : EReal :=
  unitRow eps x k
    + ∑ j : Fin m, Ideal.div (refWeight eps tmp x B j) (∑ j' : Fin m, refWeight eps tmp x B j') * unitRow eps (B j) k

end Cert.Attend

end
-- ==== Proof.KernelPayload.lean ====
/-
  The kernel's three stored values, read at an index.

  The bank's preparation stores the unit bank — each row over max(its norm, eps), the squared norm a lane sum — and its
  transpose times the reciprocal temperature. The streaming body flattens its 4 × 4096 × 128 block to 16384 rows. A row's
  squared norm comes out of a product with a ones matrix (every lane of that product holds ∑ x · x · 1); the row is scaled by
  the reciprocal root of max(that, eps²); the logits are a product with the prepared transposed bank; the weights are their
  exponentials over the lane sum of the exponentials; the mixture is a product with the unit bank; and the sum with the scaled
  row is reshaped back. At (b, s, k) this is the streaming row formula of the block's row (b, s), at lane k.
-/
import proofs.«164978_g85598698209303_cont_9to1_m_192_20_alg».proof.Proof.Gen.KernelIdeal.Skeleton
import proofs.«164978_g85598698209303_cont_9to1_m_192_20_alg».proof.Proof.RowSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-! ## Layout operations and a lane sum, read at explicit coordinates -/

/-- A vector `[a]` cast to a column `[a, 1]` reads, at `(i, u)`, the operand at `i`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A sum over the lanes of an `[a, b]` array, read at row `i`, is the sum over that row. -/
private theorem laneSum_apply {a b : ℕ} (src : FVec Ideal ⟨2, ![a, b]⟩ .f32) (acc : BitVec 32)
    (h : Shape.Reduces ⟨2, ![a, b]⟩ [1] ⟨1, ![a]⟩) (hφ : FKind.Formats .f32)
    (hacc : acc = FKind.add.neutral .f32 hφ) (i : Fin a) :
    multiReduction (F := Ideal) .add [1] ⟨1, ![a]⟩ src acc h hφ hacc (ix1 i) = ∑ k : Fin b, src (ix2 i k) := by
  refine (Ideal.multiReduction_add_single src acc h hφ hacc (ix1 i)).trans ?_
  refine Finset.sum_congr rfl fun k _ => congrArg src ?_
  funext d
  refine Fin.ext ?_
  match d with
  | ⟨0, _⟩ => rfl
  | ⟨1, _⟩ => rfl

/-! ## The bank's two payloads -/

theorem bankUnit_apply (v0 : Vec Ideal S64x128 .f32) (j : Fin 64) (k : Fin 128) :
    k0_pay1 (F := Ideal) v0 (ix2 j k)
      = Cert.Attend.unitRow (Ideal.ofBits .f32 0x2B8CBCCC#32) (fun k' => v0 (ix2 j k')) k := by
  unfold k0_pay1
  refine (divf_apply _ _ _).trans ?_
  unfold Cert.Attend.unitRow
  refine congrArg (Ideal.div (v0 (ix2 j k))) ?_
  refine (broadcastTo_a1_ab_apply _ _ j k).trans ?_
  refine (maximumf_apply _ _ _).trans ?_
  refine congrArg₂ max ?_ rfl
  refine congrArg Ideal.sqrt ?_
  refine (shapeCast_a_a1_apply _ _ j 0).trans ?_
  exact laneSum_apply _ _ _ _ _ j

theorem bankScaledT_apply (v0 : Vec Ideal S64x128 .f32) (k : Fin 128) (j : Fin 64) :
    k0_pay2 (F := Ideal) v0 (ix2 k j)
      = Cert.Attend.unitRow (Ideal.ofBits .f32 0x2B8CBCCC#32) (fun k' => v0 (ix2 j k')) k
          * Named.named (F := Ideal) κ "inv_temperature" (φ := .f32) 0x41649249#32 := by
  unfold k0_pay2
  refine (mulf_apply _ _ _).trans ?_
  refine congrArg₂ (· * ·) ?_ rfl
  refine (transpose_ix2_apply _ _ k j).trans ?_
  exact bankUnit_apply v0 j k

/-! ## The three products of the stream, each read at `(i, c)`

One contracted axis each: the contraction index is re-indexed through its one coordinate, and the operands' indices at
a result index and a contraction position are read off axis by axis. -/

/-! ### The squares against a block of ones: `16384×128` by `128×128` -/

private theorem lhsSq_0 (i : S16384x128.Idx) (q : dot_S16384x128_S128x128_S16384x128_1_0_0_1_n_n.contr.Idx) :
    (dot_S16384x128_S128x128_S16384x128_1_0_0_1_n_n.lhsIdx i q 0).val = (i 0).val := by
  unfold DotDims.lhsIdx
  rw [dif_neg (show ¬(0 : Fin S16384x128.rank) ∈ dot_S16384x128_S128x128_S16384x128_1_0_0_1_n_n.lhsBatch by decide), dif_pos (show (0 : Fin S16384x128.rank) ∈ dot_S16384x128_S128x128_S16384x128_1_0_0_1_n_n.lhsNonContracting by decide)]
  rfl
private theorem lhsSq_1 (i : S16384x128.Idx) (q : dot_S16384x128_S128x128_S16384x128_1_0_0_1_n_n.contr.Idx) :
    (dot_S16384x128_S128x128_S16384x128_1_0_0_1_n_n.lhsIdx i q 1).val = (q ⟨0, by decide⟩).val :=
  dot_S16384x128_S128x128_S16384x128_1_0_0_1_n_n.lhsIdx_val_of_single rfl i q
private theorem rhsSq_0 (i : S16384x128.Idx) (q : dot_S16384x128_S128x128_S16384x128_1_0_0_1_n_n.contr.Idx) :
    (dot_S16384x128_S128x128_S16384x128_1_0_0_1_n_n.rhsIdx i q 0).val = (q ⟨0, by decide⟩).val :=
  dot_S16384x128_S128x128_S16384x128_1_0_0_1_n_n.rhsIdx_val_of_single rfl i q
private theorem rhsSq_1 (i : S16384x128.Idx) (q : dot_S16384x128_S128x128_S16384x128_1_0_0_1_n_n.contr.Idx) :
    (dot_S16384x128_S128x128_S16384x128_1_0_0_1_n_n.rhsIdx i q 1).val = (i 1).val := by
  unfold DotDims.rhsIdx
  rw [dif_neg (show ¬(1 : Fin S128x128.rank) ∈ dot_S16384x128_S128x128_S16384x128_1_0_0_1_n_n.rhsBatch by decide), dif_pos (show (1 : Fin S128x128.rank) ∈ dot_S16384x128_S128x128_S16384x128_1_0_0_1_n_n.rhsNonContracting by decide)]
  rfl

/-- The product into a zero accumulator, read at `(i, c)`: the sum over the contracted axis of row `i` of the left
    operand times column `c` of the right. -/
private theorem matmulSq_apply (l : FVec Ideal S16384x128 .f32) (r : FVec Ideal S128x128 .f32) (i : Fin 16384) (c : Fin 128) :
    matmul (F := Ideal) dot_S16384x128_S128x128_S16384x128_1_0_0_1_n_n none l r (constant (F := Ideal) S16384x128 .f32 0x00000000#32) (ix2 i c)
      = ∑ k : Fin 128, l (ix2 i k) * r (ix2 k c) := by
  simp only [matmul]
  rw [Ideal.matmul_constant_zero_apply, ← Equiv.sum_comp (contrEquiv1 dot_S16384x128_S128x128_S16384x128_1_0_0_1_n_n 128 rfl rfl).symm]
  refine Finset.sum_congr rfl fun k _ => ?_
  have hk := contrEquiv1_symm_val dot_S16384x128_S128x128_S16384x128_1_0_0_1_n_n 128 rfl rfl k
  have el : dot_S16384x128_S128x128_S16384x128_1_0_0_1_n_n.lhsIdx (ix2 i c) ((contrEquiv1 dot_S16384x128_S128x128_S16384x128_1_0_0_1_n_n 128 rfl rfl).symm k) = ix2 i k := funext fun a => Fin.ext (by
    match a with
    | ⟨0, _⟩ => exact lhsSq_0 _ _
    | ⟨1, _⟩ => exact (lhsSq_1 _ _).trans hk)
  have er : dot_S16384x128_S128x128_S16384x128_1_0_0_1_n_n.rhsIdx (ix2 i c) ((contrEquiv1 dot_S16384x128_S128x128_S16384x128_1_0_0_1_n_n 128 rfl rfl).symm k) = ix2 k c := funext fun a => Fin.ext (by
    match a with
    | ⟨0, _⟩ => exact (rhsSq_0 _ _).trans hk
    | ⟨1, _⟩ => exact rhsSq_1 _ _)
  rw [el, er]

/-! ### The unit rows against the transposed bank: `16384×128` by `128×64` -/

private theorem lhsLogit_0 (i : S16384x64.Idx) (q : dot_S16384x128_S128x64_S16384x64_1_0_0_1_n_n.contr.Idx) :
    (dot_S16384x128_S128x64_S16384x64_1_0_0_1_n_n.lhsIdx i q 0).val = (i 0).val := by
  unfold DotDims.lhsIdx
  rw [dif_neg (show ¬(0 : Fin S16384x128.rank) ∈ dot_S16384x128_S128x64_S16384x64_1_0_0_1_n_n.lhsBatch by decide), dif_pos (show (0 : Fin S16384x128.rank) ∈ dot_S16384x128_S128x64_S16384x64_1_0_0_1_n_n.lhsNonContracting by decide)]
  rfl
private theorem lhsLogit_1 (i : S16384x64.Idx) (q : dot_S16384x128_S128x64_S16384x64_1_0_0_1_n_n.contr.Idx) :
    (dot_S16384x128_S128x64_S16384x64_1_0_0_1_n_n.lhsIdx i q 1).val = (q ⟨0, by decide⟩).val :=
  dot_S16384x128_S128x64_S16384x64_1_0_0_1_n_n.lhsIdx_val_of_single rfl i q
private theorem rhsLogit_0 (i : S16384x64.Idx) (q : dot_S16384x128_S128x64_S16384x64_1_0_0_1_n_n.contr.Idx) :
    (dot_S16384x128_S128x64_S16384x64_1_0_0_1_n_n.rhsIdx i q 0).val = (q ⟨0, by decide⟩).val :=
  dot_S16384x128_S128x64_S16384x64_1_0_0_1_n_n.rhsIdx_val_of_single rfl i q
private theorem rhsLogit_1 (i : S16384x64.Idx) (q : dot_S16384x128_S128x64_S16384x64_1_0_0_1_n_n.contr.Idx) :
    (dot_S16384x128_S128x64_S16384x64_1_0_0_1_n_n.rhsIdx i q 1).val = (i 1).val := by
  unfold DotDims.rhsIdx
  rw [dif_neg (show ¬(1 : Fin S128x64.rank) ∈ dot_S16384x128_S128x64_S16384x64_1_0_0_1_n_n.rhsBatch by decide), dif_pos (show (1 : Fin S128x64.rank) ∈ dot_S16384x128_S128x64_S16384x64_1_0_0_1_n_n.rhsNonContracting by decide)]
  rfl

/-- The product into a zero accumulator, read at `(i, c)`: the sum over the contracted axis of row `i` of the left
    operand times column `c` of the right. -/
private theorem matmulLogit_apply (l : FVec Ideal S16384x128 .f32) (r : FVec Ideal S128x64 .f32) (i : Fin 16384) (c : Fin 64) :
    matmul (F := Ideal) dot_S16384x128_S128x64_S16384x64_1_0_0_1_n_n none l r (constant (F := Ideal) S16384x64 .f32 0x00000000#32) (ix2 i c)
      = ∑ k : Fin 128, l (ix2 i k) * r (ix2 k c) := by
  simp only [matmul]
  rw [Ideal.matmul_constant_zero_apply, ← Equiv.sum_comp (contrEquiv1 dot_S16384x128_S128x64_S16384x64_1_0_0_1_n_n 128 rfl rfl).symm]
  refine Finset.sum_congr rfl fun k _ => ?_
  have hk := contrEquiv1_symm_val dot_S16384x128_S128x64_S16384x64_1_0_0_1_n_n 128 rfl rfl k
  have el : dot_S16384x128_S128x64_S16384x64_1_0_0_1_n_n.lhsIdx (ix2 i c) ((contrEquiv1 dot_S16384x128_S128x64_S16384x64_1_0_0_1_n_n 128 rfl rfl).symm k) = ix2 i k := funext fun a => Fin.ext (by
    match a with
    | ⟨0, _⟩ => exact lhsLogit_0 _ _
    | ⟨1, _⟩ => exact (lhsLogit_1 _ _).trans hk)
  have er : dot_S16384x128_S128x64_S16384x64_1_0_0_1_n_n.rhsIdx (ix2 i c) ((contrEquiv1 dot_S16384x128_S128x64_S16384x64_1_0_0_1_n_n 128 rfl rfl).symm k) = ix2 k c := funext fun a => Fin.ext (by
    match a with
    | ⟨0, _⟩ => exact (rhsLogit_0 _ _).trans hk
    | ⟨1, _⟩ => exact rhsLogit_1 _ _)
  rw [el, er]

/-! ### The shares against the unit bank: `16384×64` by `64×128` -/

private theorem lhsMix_0 (i : S16384x128.Idx) (q : dot_S16384x64_S64x128_S16384x128_1_0_0_1_n_n.contr.Idx) :
    (dot_S16384x64_S64x128_S16384x128_1_0_0_1_n_n.lhsIdx i q 0).val = (i 0).val := by
  unfold DotDims.lhsIdx
  rw [dif_neg (show ¬(0 : Fin S16384x64.rank) ∈ dot_S16384x64_S64x128_S16384x128_1_0_0_1_n_n.lhsBatch by decide), dif_pos (show (0 : Fin S16384x64.rank) ∈ dot_S16384x64_S64x128_S16384x128_1_0_0_1_n_n.lhsNonContracting by decide)]
  rfl
private theorem lhsMix_1 (i : S16384x128.Idx) (q : dot_S16384x64_S64x128_S16384x128_1_0_0_1_n_n.contr.Idx) :
    (dot_S16384x64_S64x128_S16384x128_1_0_0_1_n_n.lhsIdx i q 1).val = (q ⟨0, by decide⟩).val :=
  dot_S16384x64_S64x128_S16384x128_1_0_0_1_n_n.lhsIdx_val_of_single rfl i q
private theorem rhsMix_0 (i : S16384x128.Idx) (q : dot_S16384x64_S64x128_S16384x128_1_0_0_1_n_n.contr.Idx) :
    (dot_S16384x64_S64x128_S16384x128_1_0_0_1_n_n.rhsIdx i q 0).val = (q ⟨0, by decide⟩).val :=
  dot_S16384x64_S64x128_S16384x128_1_0_0_1_n_n.rhsIdx_val_of_single rfl i q
private theorem rhsMix_1 (i : S16384x128.Idx) (q : dot_S16384x64_S64x128_S16384x128_1_0_0_1_n_n.contr.Idx) :
    (dot_S16384x64_S64x128_S16384x128_1_0_0_1_n_n.rhsIdx i q 1).val = (i 1).val := by
  unfold DotDims.rhsIdx
  rw [dif_neg (show ¬(1 : Fin S64x128.rank) ∈ dot_S16384x64_S64x128_S16384x128_1_0_0_1_n_n.rhsBatch by decide), dif_pos (show (1 : Fin S64x128.rank) ∈ dot_S16384x64_S64x128_S16384x128_1_0_0_1_n_n.rhsNonContracting by decide)]
  rfl

/-- The product into a zero accumulator, read at `(i, c)`: the sum over the contracted axis of row `i` of the left
    operand times column `c` of the right. -/
private theorem matmulMix_apply (l : FVec Ideal S16384x64 .f32) (r : FVec Ideal S64x128 .f32) (i : Fin 16384) (c : Fin 128) :
    matmul (F := Ideal) dot_S16384x64_S64x128_S16384x128_1_0_0_1_n_n none l r (constant (F := Ideal) S16384x128 .f32 0x00000000#32) (ix2 i c)
      = ∑ k : Fin 64, l (ix2 i k) * r (ix2 k c) := by
  simp only [matmul]
  rw [Ideal.matmul_constant_zero_apply, ← Equiv.sum_comp (contrEquiv1 dot_S16384x64_S64x128_S16384x128_1_0_0_1_n_n 64 rfl rfl).symm]
  refine Finset.sum_congr rfl fun k _ => ?_
  have hk := contrEquiv1_symm_val dot_S16384x64_S64x128_S16384x128_1_0_0_1_n_n 64 rfl rfl k
  have el : dot_S16384x64_S64x128_S16384x128_1_0_0_1_n_n.lhsIdx (ix2 i c) ((contrEquiv1 dot_S16384x64_S64x128_S16384x128_1_0_0_1_n_n 64 rfl rfl).symm k) = ix2 i k := funext fun a => Fin.ext (by
    match a with
    | ⟨0, _⟩ => exact lhsMix_0 _ _
    | ⟨1, _⟩ => exact (lhsMix_1 _ _).trans hk)
  have er : dot_S16384x64_S64x128_S16384x128_1_0_0_1_n_n.rhsIdx (ix2 i c) ((contrEquiv1 dot_S16384x64_S64x128_S16384x128_1_0_0_1_n_n 64 rfl rfl).symm k) = ix2 k c := funext fun a => Fin.ext (by
    match a with
    | ⟨0, _⟩ => exact (rhsMix_0 _ _).trans hk
    | ⟨1, _⟩ => exact rhsMix_1 _ _)
  rw [el, er]

/-! ## The stream's payload, stage by stage -/

/-- The word `0x3F800000` is one. -/
private theorem one_word : Ideal.ofBits .f32 0x3F800000#32 = 1 := by
  simp [Ideal.ofBits, Ideal.ieee, -EReal.coe_mul]; norm_num

/-- The floor under the sum of squares, as the program names it. -/
private abbrev epsSq : EReal := Named.named (F := Ideal) κ "eps_squared" (φ := .f32) 0x179ABE15#32

/-- Row `b * 4096 + s` of the flattened block. -/
private def row (b : Fin 4) (s : Fin 4096) : Fin 16384 := ⟨b.val * 4096 + s.val, by omega⟩

/-- The `4×4096×128` block flattened to `16384×128` reads, at `(row b s, k)`, the block at `(b, s, k)`. -/
private theorem flatten_apply {α : Type} (x : S4x4096x128.Idx → α) (h : S4x4096x128.ShapeCasts S16384x128)
    (b : Fin 4) (s : Fin 4096) (k : Fin 128) : shapeCast S16384x128 x h (ix2 (row b s) k) = x (ix3 b s k) :=
  shapeCast_apply x h _ _ (by
    rw [Shape.rowMajor_val_three, Shape.rowMajor_val_two]
    rfl)

/-- And back: the `16384×128` array viewed `4×4096×128` reads, at `(b, s, k)`, the array at `(row b s, k)`. -/
private theorem unflatten_apply {α : Type} (y : S16384x128.Idx → α) (h : S16384x128.ShapeCasts S4x4096x128)
    (b : Fin 4) (s : Fin 4096) (k : Fin 128) : shapeCast S4x4096x128 y h (ix3 b s k) = y (ix2 (row b s) k) :=
  shapeCast_apply y h _ _ (by
    rw [Shape.rowMajor_val_three, Shape.rowMajor_val_two]
    rfl)

/-- The flattened block. -/
private def flat (x0 : Vec Ideal S4x4096x128 .f32) : FVec Ideal S16384x128 .f32 :=
  shapeCast S16384x128 x0 shapeCasts_S4x4096x128_S16384x128

/-- Each row's sum of squares, on every lane: the squares times a block of ones. -/
private def normSq (x0 : Vec Ideal S4x4096x128 .f32) : FVec Ideal S16384x128 .f32 :=
  matmul (F := Ideal) dot_S16384x128_S128x128_S16384x128_1_0_0_1_n_n none (mulf (flat x0) (flat x0))
    (broadcast S128x128 (Scalar.ofBits (F := Ideal) .f32 0x3F800000#32)) (constant (F := Ideal) S16384x128 .f32 0x00000000#32)

/-- The rows scaled to unit length by the reciprocal square root of the floored sum of squares. -/
private def unitRows (x0 : Vec Ideal S4x4096x128 .f32) : FVec Ideal S16384x128 .f32 :=
  mulf (flat x0) (rsqrt (maximumf (normSq x0)
    (broadcast S16384x128 (Named.named (F := Ideal) κ "eps_squared" (φ := .f32) 0x179ABE15#32))))

/-- The unshifted exponential weights: the exponential of the unit rows against the prepared transposed bank. -/
private def weights (x0 : Vec Ideal S4x4096x128 .f32) (v9 : Vec Ideal S128x64 .f32) : FVec Ideal S16384x64 .f32 :=
  exp (matmul (F := Ideal) dot_S16384x128_S128x64_S16384x64_1_0_0_1_n_n none (unitRows x0)
    (shapeCast S128x64 v9 shapeCasts_S128x64_S128x64 : FVec Ideal S128x64 .f32) (constant (F := Ideal) S16384x64 .f32 0x00000000#32))

/-- The weights over their row sums. -/
private def shares (x0 : Vec Ideal S4x4096x128 .f32) (v9 : Vec Ideal S128x64 .f32) : FVec Ideal S16384x64 .f32 :=
  divf (weights x0 v9) (broadcastTo S16384x64 (shapeCast S16384x1
    (multiReduction (F := Ideal) .add [1] S16384 (weights x0 v9) 0x00000000#32 reduces_S16384x64_S16384 (.inl rfl) rfl)
    shapeCasts_S16384_S16384x1) broadcasts_S16384x1_S16384x64)

/-- The weighted mixture of the unit bank's rows. -/
private def mixture (x0 : Vec Ideal S4x4096x128 .f32) (v9 : Vec Ideal S128x64 .f32) (v17 : Vec Ideal S64x128 .f32) :
    FVec Ideal S16384x128 .f32 :=
  matmul (F := Ideal) dot_S16384x64_S64x128_S16384x128_1_0_0_1_n_n none (shares x0 v9)
    (shapeCast S64x128 v17 shapeCasts_S64x128_S64x128 : FVec Ideal S64x128 .f32) (constant (F := Ideal) S16384x128 .f32 0x00000000#32)

/-- The payload is the unit rows plus the mixture, viewed `4×4096×128`. -/
private theorem k1_pay1_eq (x0 : Vec Ideal S4x4096x128 .f32) (v9 : Vec Ideal S128x64 .f32) (v17 : Vec Ideal S64x128 .f32) :
    k1_pay1 (F := Ideal) x0 v9 v17
      = shapeCast S4x4096x128 (addf (unitRows x0) (mixture x0 v9 v17)) shapeCasts_S16384x128_S4x4096x128 := rfl

private theorem flat_apply (x0 : Vec Ideal S4x4096x128 .f32) (b : Fin 4) (s : Fin 4096) (k : Fin 128) :
    flat x0 (ix2 (row b s) k) = x0 (ix3 b s k) :=
  flatten_apply x0 _ b s k

/-- The sum of squares of row `(b, s)`, at any lane. -/
private theorem normSq_apply (x0 : Vec Ideal S4x4096x128 .f32) (b : Fin 4) (s : Fin 4096) (c : Fin 128) :
    normSq x0 (ix2 (row b s) c) = ∑ k' : Fin 128, x0 (ix3 b s k') * x0 (ix3 b s k') * 1 := by
  unfold normSq
  refine (matmulSq_apply _ _ (row b s) c).trans ?_
  refine Finset.sum_congr rfl fun k' _ => ?_
  refine congrArg₂ (· * ·) ?_ one_word
  refine (mulf_apply _ _ _).trans ?_
  exact congrArg₂ (· * ·) (flat_apply x0 b s k') (flat_apply x0 b s k')

/-- The unit row of `(b, s)`. -/
private theorem unitRows_apply (x0 : Vec Ideal S4x4096x128 .f32) (b : Fin 4) (s : Fin 4096) (k : Fin 128) :
    unitRows x0 (ix2 (row b s) k) = Cert.Attend.rsqrtRow epsSq (fun k' => x0 (ix3 b s k')) k := by
  unfold unitRows Cert.Attend.rsqrtRow
  refine (mulf_apply _ _ _).trans ?_
  refine congrArg₂ (· * ·) (flat_apply x0 b s k) ?_
  refine congrArg Ideal.rsqrt ?_
  refine (maximumf_apply _ _ _).trans ?_
  exact congrArg₂ max (normSq_apply x0 b s k) rfl

/-- The weight of bank row `j` for row `(b, s)`. -/
private theorem weights_apply (x0 : Vec Ideal S4x4096x128 .f32) (v9 : Vec Ideal S128x64 .f32)
    (b : Fin 4) (s : Fin 4096) (j : Fin 64) :
    weights x0 v9 (ix2 (row b s) j)
      = Cert.Attend.streamWeight (Cert.Attend.rsqrtRow epsSq (fun k' => x0 (ix3 b s k'))) (fun k' j => v9 (ix2 k' j)) j := by
  unfold weights Cert.Attend.streamWeight
  refine congrArg Ideal.exp ?_
  refine (matmulLogit_apply _ _ (row b s) j).trans ?_
  refine Finset.sum_congr rfl fun k' _ => ?_
  exact congrArg₂ (· * ·) (unitRows_apply x0 b s k') (congrFun (shapeCast_self v9 _) _)

/-- The share of bank row `j` for row `(b, s)`: its weight over the sum of the row's weights. -/
private theorem shares_apply (x0 : Vec Ideal S4x4096x128 .f32) (v9 : Vec Ideal S128x64 .f32)
    (b : Fin 4) (s : Fin 4096) (j : Fin 64) :
    shares x0 v9 (ix2 (row b s) j)
      = Ideal.div
          (Cert.Attend.streamWeight (Cert.Attend.rsqrtRow epsSq (fun k' => x0 (ix3 b s k'))) (fun k' j => v9 (ix2 k' j)) j)
          (∑ j' : Fin 64,
            Cert.Attend.streamWeight (Cert.Attend.rsqrtRow epsSq (fun k' => x0 (ix3 b s k'))) (fun k' j => v9 (ix2 k' j)) j') := by
  unfold shares
  refine (divf_apply _ _ _).trans ?_
  refine congrArg₂ Ideal.div (weights_apply x0 v9 b s j) ?_
  refine (broadcastTo_a1_ab_apply _ _ (row b s) j).trans ?_
  refine (shapeCast_a_a1_apply _ _ (row b s) 0).trans ?_
  refine (laneSum_apply _ _ _ _ _ (row b s)).trans ?_
  exact Finset.sum_congr rfl fun j' _ => weights_apply x0 v9 b s j'

/-- The mixture for row `(b, s)`, at lane `k`. -/
private theorem mixture_apply (x0 : Vec Ideal S4x4096x128 .f32) (v9 : Vec Ideal S128x64 .f32) (v17 : Vec Ideal S64x128 .f32)
    (b : Fin 4) (s : Fin 4096) (k : Fin 128) :
    mixture x0 v9 v17 (ix2 (row b s) k)
      = ∑ j : Fin 64, Ideal.div
          (Cert.Attend.streamWeight (Cert.Attend.rsqrtRow epsSq (fun k' => x0 (ix3 b s k'))) (fun k' j => v9 (ix2 k' j)) j)
          (∑ j' : Fin 64,
            Cert.Attend.streamWeight (Cert.Attend.rsqrtRow epsSq (fun k' => x0 (ix3 b s k'))) (fun k' j => v9 (ix2 k' j)) j')
          * v17 (ix2 j k) := by
  unfold mixture
  refine (matmulMix_apply _ _ (row b s) k).trans ?_
  refine Finset.sum_congr rfl fun j _ => ?_
  exact congrArg₂ (· * ·) (shares_apply x0 v9 b s j) (congrFun (shapeCast_self v17 _) _)

theorem stream_apply (x0 : Vec Ideal S4x4096x128 .f32) (v9 : Vec Ideal S128x64 .f32) (v17 : Vec Ideal S64x128 .f32)
    (b : Fin 4) (s : Fin 4096) (k : Fin 128) :
    k1_pay1 (F := Ideal) x0 v9 v17 (ix3 b s k)
      = Cert.Attend.streamRow (Named.named (F := Ideal) κ "eps_squared" (φ := .f32) 0x179ABE15#32)
          (fun k' => x0 (ix3 b s k')) (fun k' j => v9 (ix2 k' j)) (fun j k' => v17 (ix2 j k')) k := by
  refine (congrFun (k1_pay1_eq x0 v9 v17) _).trans ?_
  refine (unflatten_apply _ _ b s k).trans ?_
  refine (addf_apply _ _ _).trans ?_
  unfold Cert.Attend.streamRow
  exact congrArg₂ (· + ·) (unitRows_apply x0 b s k) (mixture_apply x0 v9 v17 b s k)

end Cert.KernelIdeal.Payload

end
-- ==== Proof.RowLaw.lean ====
import proofs.«164978_g85598698209303_cont_9to1_m_192_20_alg».proof.Proof.RowSpec

/-
  The kernel's row and the reference's row agree on real entries.

  With real entries every operation of both rows stays on the reals, so each side is the coercion of a real expression.
  Three facts identify the two real expressions:
  (1) v · (sqrt (max (∑ v²) eps²))⁻¹ = v / max (sqrt (∑ v²)) eps, since sqrt is monotone and sqrt (eps²) = eps for
      eps > 0;
  (2) ∑ u · (w · (1/tmp)) = (∑ u · w) / tmp;
  (3) the softmax shift cancels: exp (s_j − M) / ∑ exp (s_j' − M) = exp s_j / ∑ exp s_j' for any real M, and the
      largest logit over a nonempty index set of real logits is a real.
-/

noncomputable section

namespace Cert.Attend

open Idealize.ShloMosaic

variable {n m : ℕ}

/-- A finite sum of coerced reals is the coercion of the real sum. -/
private theorem coe_sum {ι : Type*} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The coercion commutes with the maximum. -/
private theorem coe_max (a b : ℝ) : max (a : EReal) (b : EReal) = ((max a b : ℝ) : EReal) :=
  ((EReal.coe_strictMono.monotone).map_max).symm

/-- Division of a real by a nonzero real stays real. -/
private theorem div_coe_coe (p q : ℝ) (hq : q ≠ 0) : Ideal.div (p : EReal) (q : EReal) = ((p / q : ℝ) : EReal) := by
  rw [Ideal.div_coe hq, ← EReal.coe_mul, mul_one_div]

/-- The maximum folded from −∞ over a nonempty set of reals is a real. -/
private theorem fold_max_coe {ι : Type*} (s : Finset ι) (hs : s.Nonempty) (f : ι → ℝ) :
    ∃ M : ℝ, s.fold max (⊥ : EReal) (fun i => (f i : EReal)) = (M : EReal) := by
  induction hs using Finset.Nonempty.cons_induction with
  | singleton a => exact ⟨f a, by rw [Finset.fold_singleton]; exact max_eq_left bot_le⟩
  | cons a s ha hs ih =>
    obtain ⟨M, hM⟩ := ih
    exact ⟨max (f a) M, by rw [Finset.fold_cons, hM, coe_max]⟩

/-- The real unit row: `v k / max (sqrt (∑ v²)) eps`. -/
private def unitR (eps : ℝ) (v : Fin n → ℝ) (k : Fin n) : ℝ :=
  v k / max (Real.sqrt (∑ k' : Fin n, v k' * v k')) eps

/-- The real logit: the inner product of the unit rows over the temperature. -/
private def logitR (eps tmp : ℝ) (a : Fin n → ℝ) (b : Fin m → Fin n → ℝ) (j : Fin m) : ℝ :=
  (∑ k' : Fin n, unitR eps a k' * unitR eps (b j) k') / tmp

private theorem sumsq_nonneg (v : Fin n → ℝ) : 0 ≤ ∑ k' : Fin n, v k' * v k' :=
  Finset.sum_nonneg (fun k' _ => mul_self_nonneg (v k'))

/-- The reference's scaling of a real row is the real unit row. -/
private theorem unitRow_coe (eps : ℝ) (heps : 0 < eps) (v : Fin n → ℝ) :
    unitRow (eps : EReal) (fun k => (v k : EReal)) = fun k => ((unitR eps v k : ℝ) : EReal) := by
  funext k
  have hpos : 0 < max (Real.sqrt (∑ k' : Fin n, v k' * v k')) eps := lt_max_of_lt_right heps
  unfold unitRow unitR
  simp only [← EReal.coe_mul]
  rw [coe_sum, Ideal.sqrt_coe, if_neg (not_lt.mpr (sumsq_nonneg v)), coe_max, div_coe_coe _ _ hpos.ne']

/-- The kernel's scaling of a real row is the real unit row too: sqrt (max S eps²) = max (sqrt S) eps. -/
private theorem rsqrtRow_coe (eps : ℝ) (heps : 0 < eps) (v : Fin n → ℝ) :
    rsqrtRow ((eps * eps : ℝ) : EReal) (fun k => (v k : EReal)) = fun k => ((unitR eps v k : ℝ) : EReal) := by
  funext k
  have hpos : 0 < max (∑ k' : Fin n, v k' * v k') (eps * eps) := lt_max_of_lt_right (mul_pos heps heps)
  have hsqrt : Real.sqrt (max (∑ k' : Fin n, v k' * v k') (eps * eps))
      = max (Real.sqrt (∑ k' : Fin n, v k' * v k')) eps := by
    rw [Real.sqrt_monotone.map_max, Real.sqrt_mul_self heps.le]
  unfold rsqrtRow unitR
  simp only [mul_one, ← EReal.coe_mul]
  rw [coe_sum, coe_max, Ideal.rsqrt_coe, if_neg (not_lt.mpr hpos.le), if_neg hpos.ne', ← EReal.coe_mul, hsqrt,
    div_eq_mul_inv]

/-- The kernel's unshifted weight on real data. -/
private theorem streamWeight_coe (u : Fin n → ℝ) (c : Fin n → Fin m → ℝ) :
    streamWeight (fun k => (u k : EReal)) (fun k j => (c k j : EReal))
      = fun j => ((Real.exp (∑ k' : Fin n, u k' * c k' j) : ℝ) : EReal) := by
  funext j
  unfold streamWeight
  simp only [← EReal.coe_mul]
  rw [coe_sum, Ideal.exp_coe]

/-- A normalised mixture with positive real weights is real. -/
private theorem mix_coe [NeZero m] (e : Fin m → ℝ) (he : ∀ j, 0 < e j) (c : Fin m → ℝ) :
    (∑ j : Fin m, Ideal.div (e j : EReal) (∑ j' : Fin m, (e j' : EReal)) * (c j : EReal))
      = ((∑ j : Fin m, e j / (∑ j' : Fin m, e j') * c j : ℝ) : EReal) := by
  haveI : Nonempty (Fin m) := ⟨0⟩
  have hZ : 0 < ∑ j' : Fin m, e j' := Finset.sum_pos (fun j _ => he j) Finset.univ_nonempty
  rw [coe_sum]
  simp only [div_coe_coe _ _ hZ.ne', ← EReal.coe_mul]
  rw [coe_sum]

/-- The reference's logits on real data. -/
private theorem refLogit_coe (eps tmp : ℝ) (heps : 0 < eps) (htmp : 0 < tmp) (a : Fin n → ℝ) (b : Fin m → Fin n → ℝ) :
    refLogit (eps : EReal) (tmp : EReal) (fun k => (a k : EReal)) (fun j k => (b j k : EReal))
      = fun j => ((logitR eps tmp a b j : ℝ) : EReal) := by
  funext j
  unfold refLogit logitR
  simp only [unitRow_coe eps heps, ← EReal.coe_mul]
  rw [coe_sum, div_coe_coe _ _ htmp.ne']

/-- The reference's shift on real data is a real. -/
private theorem refShift_coe [NeZero m] (eps tmp : ℝ) (heps : 0 < eps) (htmp : 0 < tmp) (a : Fin n → ℝ)
    (b : Fin m → Fin n → ℝ) :
    ∃ M : ℝ, refShift (eps : EReal) (tmp : EReal) (fun k => (a k : EReal)) (fun j k => (b j k : EReal)) = (M : EReal) := by
  haveI : Nonempty (Fin m) := ⟨0⟩
  obtain ⟨M, hM⟩ := fold_max_coe (Finset.univ : Finset (Fin m)) Finset.univ_nonempty (logitR eps tmp a b)
  exact ⟨M, by rw [refShift, refLogit_coe eps tmp heps htmp, hM]; exact max_eq_right bot_le⟩

theorem kernelRow_eq_referenceRow [NeZero m] (eps tmp : ℝ) (heps : 0 < eps) (htmp : 0 < tmp)
    (x : Fin n → EReal) (B : Fin m → Fin n → EReal)
    (hx : ∀ k, ∃ r : ℝ, x k = (r : EReal)) (hB : ∀ j k, ∃ r : ℝ, B j k = (r : EReal)) (k : Fin n) :
    kernelRow (eps : EReal) ((eps * eps : ℝ) : EReal) ((1 / tmp : ℝ) : EReal) x B k
      = referenceRow (eps : EReal) (tmp : EReal) x B k := by
  choose a ha using hx
  choose b hb using hB
  obtain rfl : x = fun k => (a k : EReal) := funext ha
  obtain rfl : B = fun j k => (b j k : EReal) := funext fun j => funext (hb j)
  obtain ⟨M, hM⟩ := refShift_coe eps tmp heps htmp a b
  -- the reference's weights
  have hw : refWeight (eps : EReal) (tmp : EReal) (fun k => (a k : EReal)) (fun j k => (b j k : EReal))
      = fun j => ((Real.exp (logitR eps tmp a b j - M) : ℝ) : EReal) := by
    funext j
    rw [refWeight, hM, refLogit_coe eps tmp heps htmp, ← EReal.coe_sub, Ideal.exp_coe]
  -- the kernel's prepared bank
  have hbt : (fun (k' : Fin n) (j : Fin m) => unitRow (eps : EReal) (fun k => (b j k : EReal)) k' * ((1 / tmp : ℝ) : EReal))
      = fun k' j => ((unitR eps (b j) k' * (1 / tmp) : ℝ) : EReal) := by
    funext k' j
    rw [unitRow_coe eps heps, ← EReal.coe_mul]
  unfold kernelRow referenceRow streamRow
  rw [hbt, hw]
  simp only [rsqrtRow_coe eps heps, unitRow_coe eps heps, streamWeight_coe]
  rw [mix_coe _ (fun j => Real.exp_pos _), mix_coe _ (fun j => Real.exp_pos _), ← EReal.coe_add, ← EReal.coe_add]
  congr 1
  -- the real identity
  have hE : ∀ j : Fin m, Real.exp (∑ k' : Fin n, unitR eps a k' * (unitR eps (b j) k' * (1 / tmp)))
      = Real.exp (logitR eps tmp a b j) := by
    intro j
    congr 1
    unfold logitR
    rw [Finset.sum_div]
    exact Finset.sum_congr rfl fun k' _ => by ring
  have hE' : ∀ j : Fin m, Real.exp (logitR eps tmp a b j - M) = Real.exp (logitR eps tmp a b j) / Real.exp M :=
    fun j => Real.exp_sub _ _
  simp only [hE, hE', ← Finset.sum_div]
  congr 1
  exact Finset.sum_congr rfl fun j _ => by rw [div_div_div_cancel_right₀ (Real.exp_ne_zero M)]

end Cert.Attend

end
-- ==== Proof.RefValue.lean ====
/-
  The reference's result, read at an index.

  For feature row (b, s) the reference computes the unit row x / max(‖x‖, eps); for each bank row its unit row; the logits,
  inner products of unit rows over the temperature; their largest, folded from −∞; the shifted exponentials and their sum; the
  weights; the mixture of unit bank rows; and its sum with the unit feature row. Each is one operation of the program, read at
  an index from its operands; chained, entry (b, s, k) of the result is the reference's row formula of feature row (b, s) and
  the bank, at lane k. Flattening (b, s) to row b · 4096 + s and back is arithmetic on the indices.
-/
import proofs.«164978_g85598698209303_cont_9to1_m_192_20_alg».proof.Proof.Gen.ReferenceIdeal.Read
import proofs.«164978_g85598698209303_cont_9to1_m_192_20_alg».proof.Proof.RowSpec
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.ValueIdx

open Cert.ReferenceIdeal.Read Cert.Attend

/-! The reference's result at token (b, s), coordinate k, read stage by stage. The program flattens the tokens to rows
    b * 4096 + s, scales every feature row and every bank row to unit length (norm floored at eps), takes the inner
    products of the token's unit row with the bank's unit rows over the temperature, subtracts their maximum,
    exponentiates, normalises by the sum, mixes the bank's unit rows by those weights and adds the token's unit row. -/

/-- The flattened row of token (b, s). -/
private abbrev row (b : Fin 16) (s : Fin 4096) : Fin 65536 :=
  ⟨b.val * 4096 + s.val, by have := b.isLt; have := s.isLt; omega⟩

/-- The word 0xFF800000 is −∞. -/
private theorem bot_word : Ideal.ofBits .f32 0xFF800000#32 = (⊥ : EReal) := by simp [Ideal.ofBits, Ideal.ieee]

/-- The unit feature row, before the tokens are flattened: x k / max (sqrt (∑ x²)) eps. -/
private theorem feat_apply (X : (⟨S16x4096x128, .f32⟩ : BufTy).Contents (Elt Ideal)) (b : Fin 16) (s : Fin 4096) (k : Fin 128) :
    val_main_v7 (F := Ideal) X (ix3 b s k)
      = unitRow (Ideal.ofBits .f32 0x2B8CBCCC#32) (fun k' => X (ix3 b s k')) k := by
  have e : ∀ k' : Fin 128, idx_main_v1 (idx_main_v2 (idx_main_v6 (ix3 b s k))) k' = ix3 b s k' := fun k' =>
    funext fun a => Fin.ext (by match a with | ⟨0, _⟩ => rfl | ⟨1, _⟩ => rfl | ⟨2, _⟩ => rfl)
  rw [val_main_v7_apply, val_main_v6_apply, val_main_v5_apply, val_main_v3_apply, val_main_v2_apply, val_main_v1_apply,
    val_main_v4_apply, val_main_cst_0_apply, val_main_cst_apply]
  simp only [val_main_v0_apply, e, Ideal.hostDivf_def, Ideal.hostUnary_sqrt_def, Ideal.maximumf_def, Ideal.mulf_def,
    Ideal.ofBits_def, Ideal.ofBits_zero_f32, zero_add]
  rfl

/-- The same row at the flattened index: entry (b * 4096 + s, k) of the reshaped array is entry (b, s, k). -/
private theorem feat8_apply (X : (⟨S16x4096x128, .f32⟩ : BufTy).Contents (Elt Ideal)) (b : Fin 16) (s : Fin 4096) (k : Fin 128) :
    val_main_v8 (F := Ideal) X (ix2 (row b s) k)
      = unitRow (Ideal.ofBits .f32 0x2B8CBCCC#32) (fun k' => X (ix3 b s k')) k := by
  have e : idx_main_v8 (ix2 (row b s) k) = ix3 b s k := funext fun a => Fin.ext (by
    have hb := b.isLt; have hs := s.isLt; have hk := k.isLt
    match a with
    | ⟨0, _⟩ => show ((b.val * 4096 + s.val) * 128 + k.val) / 524288 = b.val; omega
    | ⟨1, _⟩ => show ((b.val * 4096 + s.val) * 128 + k.val) / 128 % 4096 = s.val; omega
    | ⟨2, _⟩ => show ((b.val * 4096 + s.val) * 128 + k.val) % 128 = k.val; omega)
  rw [val_main_v8_apply, e, feat_apply]

/-- The bank's unit row j. -/
private theorem bank_apply (MB : (⟨S64x128, .f32⟩ : BufTy).Contents (Elt Ideal)) (j : Fin 64) (k : Fin 128) :
    val_main_v16 (F := Ideal) MB (ix2 j k)
      = unitRow (Ideal.ofBits .f32 0x2B8CBCCC#32) (fun k' => MB (ix2 j k')) k := by
  have e : ∀ k' : Fin 128, idx_main_v10 (idx_main_v11 (idx_main_v15 (ix2 j k))) k' = ix2 j k' := fun k' =>
    funext fun a => Fin.ext (by match a with | ⟨0, _⟩ => rfl | ⟨1, _⟩ => rfl)
  rw [val_main_v16_apply, val_main_v15_apply, val_main_v14_apply, val_main_v12_apply, val_main_v11_apply, val_main_v10_apply,
    val_main_v13_apply, val_main_cst_2_apply, val_main_cst_1_apply]
  simp only [val_main_v9_apply, e, Ideal.hostDivf_def, Ideal.hostUnary_sqrt_def, Ideal.maximumf_def, Ideal.mulf_def,
    Ideal.ofBits_def, Ideal.ofBits_zero_f32, zero_add]
  rfl

/-- The logit of bank row j for token (b, s): the inner product of the two unit rows over the temperature. -/
private theorem logit_apply (X : (⟨S16x4096x128, .f32⟩ : BufTy).Contents (Elt Ideal)) (MB : (⟨S64x128, .f32⟩ : BufTy).Contents (Elt Ideal))
    (b : Fin 16) (s : Fin 4096) (j : Fin 64) :
    val_main_v20 (F := Ideal) X MB (ix2 (row b s) j)
      = refLogit (Ideal.ofBits .f32 0x2B8CBCCC#32) (Ideal.ofBits .f32 0x3D8F5C29#32)
          (fun k' => X (ix3 b s k')) (fun j k' => MB (ix2 j k')) j := by
  have el : ∀ k' : Fin 128, lidx_main_v18 (ix2 (row b s) j) k' = ix2 (row b s) k' := fun k' =>
    funext fun a => Fin.ext (by match a with | ⟨0, _⟩ => rfl | ⟨1, _⟩ => rfl)
  have er : ∀ k' : Fin 128, idx_main_v17 (ridx_main_v18 (ix2 (row b s) j) k') = ix2 j k' := fun k' =>
    funext fun a => Fin.ext (by match a with | ⟨0, _⟩ => rfl | ⟨1, _⟩ => rfl)
  rw [val_main_v20_apply, val_main_v18_apply, val_main_v19_apply, val_main_cst_3_apply]
  simp only [val_main_v17_apply, el, er, feat8_apply, bank_apply, Ideal.hostDivf_def, Ideal.ofBits_def]
  rfl

/-- Dropping the bank axis of the logits' shape leaves the rows. -/
private theorem reduces_logits : S65536x64.Reduces [1] S65536 := by decide

/-- Row r with bank coordinate j put back is (r, j). -/
private theorem lift_row (r : Fin 65536) (j : Fin (S65536x64.size 1)) :
    reduces_logits.lift (ix1 r) j = ix2 r (⟨j.val, j.isLt⟩ : Fin 64) := by
  funext c; apply Fin.ext
  fin_cases c <;> rfl

/-- The largest logit of token (b, s), folded from −∞. -/
private theorem max_apply (X : (⟨S16x4096x128, .f32⟩ : BufTy).Contents (Elt Ideal)) (MB : (⟨S64x128, .f32⟩ : BufTy).Contents (Elt Ideal))
    (b : Fin 16) (s : Fin 4096) :
    val_main_v21 (F := Ideal) X MB (ix1 (row b s))
      = (Finset.univ : Finset (Fin 64)).fold max ⊥
          (refLogit (Ideal.ofBits .f32 0x2B8CBCCC#32) (Ideal.ofBits .f32 0x3D8F5C29#32)
            (fun k' => X (ix3 b s k')) (fun j k' => MB (ix2 j k'))) := by
  unfold val_main_v21
  rw [Host.reduce_eq_fold_single FloatOps.maximumf _ _ reducesTo_S65536x64_S65536_d1 reduces_logits h_S_]
  have hf : (val_main_v20 (F := Ideal) X MB ∘ reduces_logits.lift (ix1 (row b s)))
      = fun j : Fin 64 => refLogit (Ideal.ofBits .f32 0x2B8CBCCC#32) (Ideal.ofBits .f32 0x3D8F5C29#32)
          (fun k' => X (ix3 b s k')) (fun j k' => MB (ix2 j k')) j :=
    funext fun j => (congrArg (val_main_v20 (F := Ideal) X MB) (lift_row (row b s) j)).trans (logit_apply X MB b s _)
  have hi : val_main_cst_4 (F := Ideal) (Shape.Idx.first h_S_) = (⊥ : EReal) := bot_word
  rw [hi]
  exact congrArg (fun f => Finset.fold max (⊥ : EReal) f (Finset.univ : Finset (Fin 64))) hf

/-- The shift of token (b, s): its largest logit, once more compared with −∞. -/
private theorem shift_apply (X : (⟨S16x4096x128, .f32⟩ : BufTy).Contents (Elt Ideal)) (MB : (⟨S64x128, .f32⟩ : BufTy).Contents (Elt Ideal))
    (b : Fin 16) (s : Fin 4096) (j : Fin 64) :
    val_main_v25 (F := Ideal) X MB (ix2 (row b s) j)
      = refShift (Ideal.ofBits .f32 0x2B8CBCCC#32) (Ideal.ofBits .f32 0x3D8F5C29#32)
          (fun k' => X (ix3 b s k')) (fun j k' => MB (ix2 j k')) := by
  have e : idx_main_v24 (idx_main_v25 (ix2 (row b s) j)) = ix1 (row b s) :=
    funext fun a => Fin.ext (by match a with | ⟨0, _⟩ => rfl)
  rw [val_main_v25_apply, val_main_v24_apply, val_main_v23_apply, val_main_v22_apply, val_main_cst_5_apply, e, max_apply]
  simp only [Ideal.maximumf_def, Ideal.ofBits_def, bot_word]
  rfl

/-- The shifted exponential weight of bank row j. -/
private theorem weight_apply (X : (⟨S16x4096x128, .f32⟩ : BufTy).Contents (Elt Ideal)) (MB : (⟨S64x128, .f32⟩ : BufTy).Contents (Elt Ideal))
    (b : Fin 16) (s : Fin 4096) (j : Fin 64) :
    val_main_v27 (F := Ideal) X MB (ix2 (row b s) j)
      = refWeight (Ideal.ofBits .f32 0x2B8CBCCC#32) (Ideal.ofBits .f32 0x3D8F5C29#32)
          (fun k' => X (ix3 b s k')) (fun j k' => MB (ix2 j k')) j := by
  rw [val_main_v27_apply, val_main_v26_apply, logit_apply, shift_apply]
  simp only [Ideal.hostUnary_exp_def, Ideal.subf_def]
  rfl

/-- The normalised weight of bank row j: its weight over the sum of the weights. -/
private theorem prob_apply (X : (⟨S16x4096x128, .f32⟩ : BufTy).Contents (Elt Ideal)) (MB : (⟨S64x128, .f32⟩ : BufTy).Contents (Elt Ideal))
    (b : Fin 16) (s : Fin 4096) (j : Fin 64) :
    val_main_v31 (F := Ideal) X MB (ix2 (row b s) j)
      = Ideal.div
          (refWeight (Ideal.ofBits .f32 0x2B8CBCCC#32) (Ideal.ofBits .f32 0x3D8F5C29#32)
            (fun k' => X (ix3 b s k')) (fun j k' => MB (ix2 j k')) j)
          (∑ j' : Fin 64, refWeight (Ideal.ofBits .f32 0x2B8CBCCC#32) (Ideal.ofBits .f32 0x3D8F5C29#32)
            (fun k' => X (ix3 b s k')) (fun j k' => MB (ix2 j k')) j') := by
  have e : ∀ j' : Fin 64, idx_main_v28 (idx_main_v29 (idx_main_v30 (ix2 (row b s) j))) j' = ix2 (row b s) j' := fun j' =>
    funext fun a => Fin.ext (by match a with | ⟨0, _⟩ => rfl | ⟨1, _⟩ => rfl)
  rw [val_main_v31_apply, val_main_v30_apply, val_main_v29_apply, val_main_v28_apply, val_main_cst_6_apply]
  simp only [e, weight_apply, Ideal.hostDivf_def, Ideal.ofBits_def, Ideal.ofBits_zero_f32, zero_add]

theorem result_apply (X : (⟨S16x4096x128, .f32⟩ : BufTy).Contents (Elt Ideal)) (MB : (⟨S64x128, .f32⟩ : BufTy).Contents (Elt Ideal))
    (b : Fin 16) (s : Fin 4096) (k : Fin 128) :
    Cert.ReferenceIdeal.Read.val_main_v34 (F := Ideal) X MB (ix3 b s k)
      = Cert.Attend.referenceRow (Ideal.ofBits .f32 0x2B8CBCCC#32) (Ideal.ofBits .f32 0x3D8F5C29#32)
          (fun k' => X (ix3 b s k')) (fun j k' => MB (ix2 j k')) k := by
  have e : idx_main_v34 (ix3 b s k) = ix2 (row b s) k := funext fun a => Fin.ext (by
    have hb := b.isLt; have hs := s.isLt; have hk := k.isLt
    match a with
    | ⟨0, _⟩ => show ((b.val * 4096 + s.val) * 128 + k.val) / 128 = b.val * 4096 + s.val; omega
    | ⟨1, _⟩ => show ((b.val * 4096 + s.val) * 128 + k.val) % 128 = k.val; omega)
  have el : ∀ j : Fin 64, lidx_main_v32 (ix2 (row b s) k) j = ix2 (row b s) j := fun j =>
    funext fun a => Fin.ext (by match a with | ⟨0, _⟩ => rfl | ⟨1, _⟩ => rfl)
  have er : ∀ j : Fin 64, ridx_main_v32 (ix2 (row b s) k) j = ix2 j k := fun j =>
    funext fun a => Fin.ext (by match a with | ⟨0, _⟩ => rfl | ⟨1, _⟩ => rfl)
  rw [val_main_v34_apply, e, val_main_v33_apply, val_main_v32_apply, feat8_apply]
  simp only [el, er, prob_apply, bank_apply, Ideal.addf_def]
  rfl

end Cert.ReferenceIdeal.RefValue

end
-- ==== Proof.Consts.lean ====
/-
  The float constants the two programs spell, as the extended reals they denote.

  The reference's floor `eps` (the f32 nearest 1e-12) is 2305843 / 2^61 and its temperature (the f32 nearest 0.07) is
  9395241 / 2^27. The kernel carries two folded constants of its own, which the certificate's table reads as closed forms
  over those two numbers: the reciprocal temperature 2^27 / 9395241, and the square of the floor, 2305843² / 2^122.
  The last two theorems are the two rational identities that say so.
-/
import proofs.«164978_g85598698209303_cont_9to1_m_192_20_alg».proof.KernelIdeal
import Idealize.ShloMosaic.PureOps.Ideal
import Idealize.ShloMosaic.PureOps.IdealRules

noncomputable section

namespace Cert.Consts

open Idealize.ShloMosaic

/-- The norm floor, the f32 nearest 1e-12: 2305843 / 2^61. -/
theorem eps_word : Ideal.ofBits .f32 0x2B8CBCCC#32 = ((2305843 / 2305843009213693952 : ℝ) : EReal) := by
  simp [Ideal.ofBits, Ideal.ieee, -EReal.coe_mul]; norm_num

/-- The temperature, the f32 nearest 0.07: 9395241 / 2^27. -/
theorem temperature_word : Ideal.ofBits .f32 0x3D8F5C29#32 = ((9395241 / 134217728 : ℝ) : EReal) := by
  simp [Ideal.ofBits, Ideal.ieee, -EReal.coe_mul]; norm_num

/-- The kernel's folded reciprocal temperature denotes the exact reciprocal of the reference's temperature. -/
theorem inv_temperature_named :
    Named.named (F := Ideal) Cert.KernelIdeal.κ "inv_temperature" (φ := .f32) 0x41649249#32 = ((134217728 / 9395241 : ℝ) : EReal) :=
  IdealRules.named_const.ideal_named_scalar _ _ _ _ rfl

/-- The kernel's folded squared floor denotes the exact square of the reference's floor. -/
theorem eps_squared_named :
    Named.named (F := Ideal) Cert.KernelIdeal.κ "eps_squared" (φ := .f32) 0x179ABE15#32
      = ((5316911940649 / 5316911983139663491615228241121378304 : ℝ) : EReal) :=
  IdealRules.named_const.ideal_named_scalar _ _ _ _ rfl

theorem eps_pos : (0 : ℝ) < 2305843 / 2305843009213693952 := by norm_num

theorem temperature_pos : (0 : ℝ) < 9395241 / 134217728 := by norm_num

/-- 2^27 / 9395241 is one over the temperature. -/
theorem inv_temperature_eq : (134217728 / 9395241 : ℝ) = 1 / (9395241 / 134217728) := by norm_num

/-- 2305843² / 2^122 is the floor times itself. -/
theorem eps_squared_eq :
    (5316911940649 / 5316911983139663491615228241121378304 : ℝ)
      = 2305843 / 2305843009213693952 * (2305843 / 2305843009213693952) := by norm_num

end Cert.Consts

end
-- ==== Proof.KernelValue.lean ====
/-
  The kernel's result array is the reference's result, entry by entry, for finite inputs.

  The streaming region finds the features as launched and the two arrays the bank's preparation left: the unit bank and its
  transpose times the reciprocal temperature. So entry (b, s, k) of the result is the kernel's row formula of feature row
  (b, s) and the bank as launched. With the folded constants read as closed forms over the reference's own floor and
  temperature — the squared floor, the reciprocal temperature — the row law identifies it with the reference's row formula,
  which is what the reference's last stage holds at (b, s, k).
-/
import proofs.«164978_g85598698209303_cont_9to1_m_192_20_alg».proof.Proof.Gen.KernelIdeal.Frame
import proofs.«164978_g85598698209303_cont_9to1_m_192_20_alg».proof.Proof.KernelArrays
import proofs.«164978_g85598698209303_cont_9to1_m_192_20_alg».proof.Proof.KernelPayload
import proofs.«164978_g85598698209303_cont_9to1_m_192_20_alg».proof.Proof.RowLaw
import proofs.«164978_g85598698209303_cont_9to1_m_192_20_alg».proof.Proof.RefValue
import proofs.«164978_g85598698209303_cont_9to1_m_192_20_alg».proof.Proof.Consts

set_option maxRecDepth 16384

noncomputable section

namespace Cert.KernelIdeal.ResultValue

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg)

/-- The streaming body's row function: its row formula over the two prepared banks read as matrices. -/
abbrev bodyRow (x : Fin 128 → Elt Ideal .f32) (v9 : Vec Ideal S128x64 .f32) (v17 : Vec Ideal S64x128 .f32) (k : Fin 128) : Elt Ideal .f32 :=
  Cert.Attend.streamRow (Named.named (F := Ideal) κ "eps_squared" (φ := .f32) 0x179ABE15#32) x (fun k' j => v9 (ix2 k' j)) (fun j k' => v17 (ix2 j k')) k

/-- The streaming region finds the features as launched, -/
theorem entry_features (c : Dev nD) : V1 m ρ c main_arg0 = m ((c : Thread nD τ).loc main_arg0) :=
  W1_of_ne m ρ c main_arg0 (by decide)

/-- the scaled transposed bank the preparation left, -/
theorem entry_scaledBankT (c : Dev nD) :
    (V1 m ρ c main_call0_v0_0 : Vec Ideal S128x64 .f32) = k0_pay2 (m ((c : Thread nD τ).loc main_arg1) : Vec Ideal S64x128 .f32) :=
  (W1_arr m ρ c 1).trans (Arrays.scaledBankT_array (V0 m ρ) c)

/-- and the unit bank it left. -/
theorem entry_unitBank (c : Dev nD) :
    (V1 m ρ c main_call0_v0_1 : Vec Ideal S64x128 .f32) = k0_pay1 (m ((c : Thread nD τ).loc main_arg1) : Vec Ideal S64x128 .f32) :=
  (W1_arr m ρ c 2).trans (Arrays.unitBank_array (V0 m ρ) c)

/-- The result array, entry by entry, is the reference's last stage of the launched arrays, when these hold real numbers. -/
theorem result_eq (c : Dev nD)
    (hX : ∀ i, ∃ r : ℝ, (m ((c : Thread nD τ).loc main_arg0) : Vec Ideal S16x4096x128 .f32) i = (r : EReal))
    (hB : ∀ i, ∃ r : ℝ, (m ((c : Thread nD τ).loc main_arg1) : Vec Ideal S64x128 .f32) i = (r : EReal)) :
    (dat1 (V1 m ρ) c).arrAt 3 cfg1.N
      = Cert.ReferenceIdeal.Read.val_main_v34 (F := Ideal) (m ((c : Thread nD τ).loc main_arg0)) (m ((c : Thread nD τ).loc main_arg1)) := by
  rw [Arrays.result_array (V1 m ρ) (R := bodyRow) (fun x0 v9 v17 b s k => Payload.stream_apply x0 v9 v17 b s k) c]
  funext i
  obtain ⟨b, s, k, rfl⟩ : ∃ (b : Fin 16) (s : Fin 4096) (k : Fin 128), i = ix3 b s k := ⟨i 0, i 1, i 2, eq_ix3 i⟩
  rw [Cert.ReferenceIdeal.RefValue.result_apply]
  show bodyRow (fun k' => (V1 m ρ c main_arg0 : Vec Ideal S16x4096x128 .f32) (ix3 b s k'))
      (V1 m ρ c main_call0_v0_0 : Vec Ideal S128x64 .f32) (V1 m ρ c main_call0_v0_1 : Vec Ideal S64x128 .f32) k = _
  rw [entry_features m ρ c, entry_scaledBankT m ρ c, entry_unitBank m ρ c]
  simp only [bodyRow, Payload.bankScaledT_apply, Payload.bankUnit_apply]
  show Cert.Attend.kernelRow (Ideal.ofBits .f32 0x2B8CBCCC#32)
      (Named.named (F := Ideal) κ "eps_squared" (φ := .f32) 0x179ABE15#32)
      (Named.named (F := Ideal) κ "inv_temperature" (φ := .f32) 0x41649249#32)
      (fun k' => (m ((c : Thread nD τ).loc main_arg0) : Vec Ideal S16x4096x128 .f32) (ix3 b s k'))
      (fun j k' => (m ((c : Thread nD τ).loc main_arg1) : Vec Ideal S64x128 .f32) (ix2 j k')) k = _
  rw [Cert.Consts.eps_word, Cert.Consts.temperature_word, Cert.Consts.eps_squared_named, Cert.Consts.inv_temperature_named,
    Cert.Consts.eps_squared_eq, Cert.Consts.inv_temperature_eq]
  exact Cert.Attend.kernelRow_eq_referenceRow _ _ Cert.Consts.eps_pos Cert.Consts.temperature_pos _ _
    (fun k' => hX _) (fun j k' => hB _) k

end Cert.KernelIdeal.ResultValue

end
-- ==== Proof.Finite.lean ====
/-
  The precondition says every entry of both inputs is a real number.

  It compares each entry's absolute value, max(x, −x), with +∞ and takes the conjunction over all entries of both arrays. An
  extended real whose absolute value is strictly below +∞ is neither −∞ nor +∞: at both, the absolute value is +∞ itself.
-/
import proofs.«164978_g85598698209303_cont_9to1_m_192_20_alg».proof.Pre_finite_inputs
import Idealize.ShloMosaic.Lib.ReduceAll
import Idealize.ShloMosaic.Lib.ValueIdx

noncomputable section

namespace Cert.Pre_finite_inputs.Finite

open Idealize.ShloMosaic

variable [Cert.Pre_finite_inputs.Facts]

/-- The rank-0 shape has a single index. -/
private instance : Subsingleton Cert.Pre_finite_inputs.S_.Idx := ⟨fun a b => funext fun d => d.elim0⟩

/-- The f32 word `0x7F800000` (sign 0, exponent all ones, fraction 0) denotes `+∞`. -/
private theorem inf_word : Ideal.ofBits .f32 0x7F800000#32 = (⊤ : EReal) := by
  simp [Ideal.ofBits, Ideal.ieee]

/-- An extended real whose absolute value `max x (-x)` compares strictly below `⊤` is a real number:
    at `⊥` and at `⊤` the absolute value is `⊤` itself. -/
private theorem real_of_abs_lt_top (x : EReal)
    (hx : Ideal.cmp .olt (max x (-x)) ⊤ = 1#1) : ∃ r : ℝ, x = (r : EReal) := by
  induction x using EReal.rec with
  | bot => simp [Ideal.cmp] at hx
  | coe r => exact ⟨r, rfl⟩
  | top => simp [Ideal.cmp] at hx

theorem entries_real (X : FVec Ideal Cert.Pre_finite_inputs.S16x4096x128 .f32) (MB : FVec Ideal Cert.Pre_finite_inputs.S64x128 .f32)
    (h : Cert.Pre_finite_inputs.fn (F := Ideal) X MB = fun _ => 1#1) :
    (∀ i, ∃ r : ℝ, X i = (r : EReal)) ∧ (∀ i, ∃ r : ℝ, MB i = (r : EReal)) := by
  have h0 := congrFun h ValueIdx.ix0
  dsimp only [Cert.Pre_finite_inputs.fn] at h0
  obtain ⟨hX, hM⟩ := IntOp.andi_eq_one.1 h0
  refine ⟨fun i => ?_, fun i => ?_⟩
  · -- every entry of the compared array is 1; at `i` that entry is `|X i| < +∞`
    have hi := Host.reduce_andi_all _ _ _ _ _ hX i
    change Ideal.cmp .olt (max (X i : EReal) (-(X i : EReal))) (Ideal.ofBits .f32 0x7F800000#32) = 1#1 at hi
    rw [inf_word] at hi
    exact real_of_abs_lt_top _ hi
  · have hi := Host.reduce_andi_all _ _ _ _ _ hM i
    change Ideal.cmp .olt (max (MB i : EReal) (-(MB i : EReal))) (Ideal.ofBits .f32 0x7F800000#32) = 1#1 at hi
    rw [inf_word] at hi
    exact real_of_abs_lt_top _ hi

end Cert.Pre_finite_inputs.Finite

end
-- ==== Proof.lean ====
/-
  The certificate: the kernel against its reference, over the extended reals.

  Both programs take token features (16 × 4096 rows of length 128) and a memory bank (64 rows of length 128). Every row is
  scaled to unit Euclidean length with its norm floored at eps; each feature row attends over the unit bank through a softmax of
  the inner products over a temperature, and the weighted mixture of unit bank rows is added back to the unit feature row.

  The kernel does this in two regions: one prepares the unit bank and its transpose times the reciprocal temperature; the other
  streams the features through in four blocks of four batches, taking a row's squared norm as a product with a ones matrix,
  scaling by the reciprocal square root of max(that, eps²), and exponentiating the logits without the reference's shift by their
  maximum. Its two folded constants are read as closed forms over the reference's own printed floor and temperature: the squared
  floor and the reciprocal temperature. For finite inputs the two row formulas then agree: √ is monotone and √(eps²) = eps; the
  reciprocal temperature comes out of the inner product; and the shift cancels between a softmax's numerator and denominator.

  The frames of the two kernel programs are the generated ones; the reference's frame is its generated run with the result
  dropped. `preserves` is the two named constants' entries of the table. `algebraic` pairs the kernel's run, whose result array
  is read row by row from the two regions' write-backs, with the reference's run, read one operation at a time, at one function.
-/
import proofs.«164978_g85598698209303_cont_9to1_m_192_20_alg».proof.Defs
import proofs.«164978_g85598698209303_cont_9to1_m_192_20_alg».proof.Proof.Gen.Kernel
import proofs.«164978_g85598698209303_cont_9to1_m_192_20_alg».proof.Proof.Gen.Kernel.Skeleton
import proofs.«164978_g85598698209303_cont_9to1_m_192_20_alg».proof.Proof.Gen.Kernel.Launch
import proofs.«164978_g85598698209303_cont_9to1_m_192_20_alg».proof.Proof.Gen.Kernel.Points
import proofs.«164978_g85598698209303_cont_9to1_m_192_20_alg».proof.Proof.Gen.Kernel.Frame
import proofs.«164978_g85598698209303_cont_9to1_m_192_20_alg».proof.Proof.Gen.KernelIdeal
import proofs.«164978_g85598698209303_cont_9to1_m_192_20_alg».proof.Proof.Gen.KernelIdeal.Skeleton
import proofs.«164978_g85598698209303_cont_9to1_m_192_20_alg».proof.Proof.Gen.KernelIdeal.Launch
import proofs.«164978_g85598698209303_cont_9to1_m_192_20_alg».proof.Proof.Gen.KernelIdeal.Points
import proofs.«164978_g85598698209303_cont_9to1_m_192_20_alg».proof.Proof.Gen.KernelIdeal.Frame
import proofs.«164978_g85598698209303_cont_9to1_m_192_20_alg».proof.Proof.Gen.ReferenceIdeal
import proofs.«164978_g85598698209303_cont_9to1_m_192_20_alg».proof.Proof.Gen.ReferenceIdeal.Run
import proofs.«164978_g85598698209303_cont_9to1_m_192_20_alg».proof.Proof.Gen.ReferenceIdeal.Read
import proofs.«164978_g85598698209303_cont_9to1_m_192_20_alg».proof.Proof.Gen.Pre_finite_inputs
import proofs.«164978_g85598698209303_cont_9to1_m_192_20_alg».proof.Proof.KernelRun
import proofs.«164978_g85598698209303_cont_9to1_m_192_20_alg».proof.Proof.KernelValue
import proofs.«164978_g85598698209303_cont_9to1_m_192_20_alg».proof.Proof.Finite
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result's value forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The table gives the folded reciprocal temperature the value 2^27 / 9395241 and the folded squared floor the value
    2305843² / 2^122; at the ideal instance the printed constants are those values. -/
theorem preserves : Cert.preserves_Kernel_KernelIdeal :=
  ⟨IdealRules.named_const.statement Cert.KernelIdeal.κ "inv_temperature" .f32 0x41649249#32 ((134217728 / 9395241 : ℝ) : EReal) rfl,
   IdealRules.named_const.statement Cert.KernelIdeal.κ "eps_squared" .f32 0x179ABE15#32
     ((5316911940649 / 5316911983139663491615228241121378304 : ℝ) : EReal) rfl⟩

/-- From memories that agree on the features and the bank, both finite, the kernel's result array and the reference's result
    are one array: the reference's last stage of the launched arrays. -/
theorem algebraic : Cert.algebraic_KernelIdeal_ReferenceIdeal := by
  intro m ρ m' ρ' hpre hagree
  refine ⟨fun c => Cert.ReferenceIdeal.Read.val_main_v34 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun r h c => ⟨(h c).1.trans ?_, (h c).2⟩)
      (Cert.KernelIdeal.GenRun.run_result (F := Ideal) m ρ)
    obtain ⟨hX, hB⟩ := Cert.Pre_finite_inputs.Finite.entries_real _ _ (hpre c)
    exact Cert.KernelIdeal.ResultValue.result_eq m ρ c hX hB
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v34_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
